-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v53)) (v1 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_v52) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12288x2000 : Shape := ⟨2, ![12288, 2000]⟩
abbrev S393216x1 : Shape := ⟨2, ![393216, 1]⟩
abbrev S2000x64 : Shape := ⟨2, ![2000, 64]⟩
abbrev S64 : Shape := ⟨1, ![64]⟩
abbrev S64x64 : Shape := ⟨2, ![64, 64]⟩
abbrev S393216 : Shape := ⟨1, ![393216]⟩
abbrev S_ : Shape := ⟨0, ![]⟩

class Facts : Prop where
  bcast_S_S12288x2000 : S_.BroadcastsInDim S12288x2000 (![] : Fin 0 → Fin S12288x2000.rank)
  reducesTo_S12288x2000_S_d0_1 : S12288x2000.ReducesTo [0, 1] S_
  h_S_ : 0 < S_.numel
  bcast_S_S393216x1 : S_.BroadcastsInDim S393216x1 (![] : Fin 0 → Fin S393216x1.rank)
  reducesTo_S393216x1_S_d0_1 : S393216x1.ReducesTo [0, 1] S_
  bcast_S_S2000x64 : S_.BroadcastsInDim S2000x64 (![] : Fin 0 → Fin S2000x64.rank)
  reducesTo_S2000x64_S_d0_1 : S2000x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg4 : FVec F S64x64 .f32) (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S12288x2000 .f32) (main_arg1 : FVec F S393216x1 .f32) (main_arg2 : FVec F S2000x64 .f32) (main_arg3 : FVec F S64 .f32) (main_arg4 : FVec F S64x64 .f32) (main_arg5 : FVec F S64 .f32) (main_arg6 : IVec S393216 32) (main_arg7 : IVec S393216 32) : IVec S_ 1 :=
  let main_v0 : FVec F S12288x2000 .f32 := Host.absf main_arg0
  let main_cst : FVec F S_ .f32 := constant S_ .f32 0x7F800000#32
  let main_v1 : FVec F S12288x2000 .f32 := broadcastInDim S12288x2000 ![] bcast_S_S12288x2000 main_cst
  let main_v2 : IVec S12288x2000 1 := cmpf .olt main_v0 main_v1
  let main_c : IVec S_ 1 := constantI S_ 1 1#1
  let main_v3 : IVec S_ 1 := (fun x v => Host.reduce IntOp.andi x v reducesTo_S12288x2000_S_d0_1 h_S_) main_v2 main_c
  let main_v4 : FVec F S393216x1 .f32 := Host.absf main_arg1
  let main_cst_0 : FVec F S_ .f32 := constant S_ .f32 0x7F800000#32
  let main_v5 : FVec F S393216x1 .f32 := broadcastInDim S393216x1 ![] bcast_S_S393216x1 main_cst_0
  let main_v6 : IVec S393216x1 1 := cmpf .olt main_v4 main_v5
  let main_c_1 : IVec S_ 1 := constantI S_ 1 1#1
  let main_v7 : IVec S_ 1 := (fun x v => Host.reduce IntOp.andi x v reducesTo_S393216x1_S_d0_1 h_S_) main_v6 main_c_1
  let main_v8 : IVec S_ 1 := andi main_v3 main_v7
  let main_v9 : FVec F S2000x64 .f32 := Host.absf main_arg2
  let main_cst_2 : FVec F S_ .f32 := constant S_ .f32 0x7F800000#32
  let main_v10 : FVec F S2000x64 .f32 := broadcastInDim S2000x64 ![] bcast_S_S2000x64 main_cst_2
  let main_v11 : IVec S2000x64 1 := cmpf .olt main_v9 main_v10
  let main_c_3 : IVec S_ 1 := constantI S_ 1 1#1
  let main_v12 : IVec S_ 1 := (fun x v => Host.reduce IntOp.andi x v reducesTo_S2000x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S12288x2000 : Shape := ⟨2, ![12288, 2000]⟩
abbrev S393216x1 : Shape := ⟨2, ![393216, 1]⟩
abbrev S2000x64 : Shape := ⟨2, ![2000, 64]⟩
abbrev S64 : Shape := ⟨1, ![64]⟩
abbrev S64x64 : Shape := ⟨2, ![64, 64]⟩
abbrev S393216 : Shape := ⟨1, ![393216]⟩
abbrev S_ : Shape := ⟨0, ![]⟩
abbrev S12288 : Shape := ⟨1, ![12288]⟩
abbrev S12288x1 : Shape := ⟨2, ![12288, 1]⟩
abbrev S12288x64 : Shape := ⟨2, ![12288, 64]⟩
abbrev S1024x2000 : Shape := ⟨2, ![1024, 2000]⟩
abbrev S1024x1 : Shape := ⟨2, ![1024, 1]⟩
abbrev S1024x64 : Shape := ⟨2, ![1024, 64]⟩
abbrev S393216x64 : Shape := ⟨2, ![393216, 64]⟩
abbrev S1x64 : Shape := ⟨2, ![1, 64]⟩
abbrev S12288x12288 : Shape := ⟨2, ![12288, 12288]⟩
abbrev S1024x1024 : Shape := ⟨2, ![1024, 1024]⟩

abbrev nBuf : Space → Nat
  | .hbm => 79
  | .vmem => 20
  | .smem => 0
  | _ => 0

abbrev bufTy : (tb : Table) → Fin (tcTables nBuf tb) → BufTy
  | .hbm, ⟨0, _⟩ => ⟨S12288x2000, .f32⟩
  | .hbm, ⟨1, _⟩ => ⟨S393216x1, .f32⟩
  | .hbm, ⟨2, _⟩ => ⟨S2000x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S393216, .i32⟩
  | .hbm, ⟨7, _⟩ => ⟨S393216, .i32⟩
  | .hbm, ⟨8, _⟩ => ⟨S_, .f32⟩
  | .hbm, ⟨9, _⟩ => ⟨S393216, .f32⟩
  | .hbm, ⟨10, _⟩ => ⟨S_, .f32⟩
  | .hbm, ⟨11, _⟩ => ⟨S12288, .f32⟩
  | .hbm, ⟨12, _⟩ => ⟨S393216x1, .i32⟩
  | .hbm, ⟨13, _⟩ => ⟨S12288, .f32⟩
  | .hbm, ⟨14, _⟩ => ⟨S_, .f32⟩
  | .hbm, ⟨15, _⟩ => ⟨S_, .f32⟩
  | .hbm, ⟨16, _⟩ => ⟨S12288, .f32⟩
  | .hbm, ⟨17, _⟩ => ⟨S12288, .f32⟩
  | .hbm, ⟨18, _⟩ => ⟨S_, .f32⟩
  | .hbm, ⟨19, _⟩ => ⟨S12288, .f32⟩
  | .hbm, ⟨20, _⟩ => ⟨S393216x1, .i32⟩
  | .hbm, ⟨21, _⟩ => ⟨S12288, .f32⟩
  | .hbm, ⟨22, _⟩ => ⟨S_, .f32⟩
  | .hbm, ⟨23, _⟩ => ⟨S_, .f32⟩
  | .hbm, ⟨24, _⟩ => ⟨S12288, .f32⟩
  | .hbm, ⟨25, _⟩ => ⟨S12288, .f32⟩
  | .hbm, ⟨26, _⟩ => ⟨S_, .f32⟩
  | .hbm, ⟨27, _⟩ => ⟨S12288, .f32⟩
  | .hbm, ⟨28, _⟩ => ⟨S12288, .f32⟩
  | .hbm, ⟨29, _⟩ => ⟨S_, .f32⟩
  | .hbm, ⟨30, _⟩ => ⟨S12288, .f32⟩
  | .hbm, ⟨31, _⟩ => ⟨S12288, .f32⟩
  | .hbm, ⟨32, _⟩ => ⟨S12288x1, .f32⟩
  | .hbm, ⟨33, _⟩ => ⟨S12288x64, .f32⟩
  | .hbm, ⟨34, _⟩ => ⟨S_, .i32⟩
  | .hbm, ⟨35, _⟩ => ⟨S393216, .i32⟩
  | .hbm, ⟨36, _⟩ => ⟨S393216, .i1⟩
  | .hbm, ⟨37, _⟩ => ⟨S_, .i32⟩
  | .hbm, ⟨38, _⟩ => ⟨S393216, .i32⟩
  | .hbm, ⟨39, _⟩ => ⟨S393216, .i32⟩
  | .hbm, ⟨40, _⟩ => ⟨S393216, .i32⟩
  | .hbm, ⟨41, _⟩ => ⟨S393216x1, .i32⟩
  | .hbm, ⟨42, _⟩ => ⟨S393216x64, .f32⟩
  | .hbm, ⟨43, _⟩ => ⟨S393216x64, .f32⟩
  | .hbm, ⟨44, _⟩ => ⟨S393216x64, .f32⟩
  | .hbm, ⟨45, _⟩ => ⟨S_, .f32⟩
  | .hbm, ⟨46, _⟩ => ⟨S12288x64, .f32⟩
  | .hbm, ⟨47, _⟩ => ⟨S393216x1, .i32⟩
  | .hbm, ⟨48, _⟩ => ⟨S12288x64, .f32⟩
  | .hbm, ⟨49, _⟩ => ⟨S12288x1, .f32⟩
  | .hbm, ⟨50, _⟩ => ⟨S12288x64, .f32⟩
  | .hbm, ⟨51, _⟩ => ⟨S12288x64, .f32⟩
  | .hbm, ⟨52, _⟩ => ⟨S1x64, .f32⟩
  | .hbm, ⟨53, _⟩ => ⟨S12288x64, .f32⟩
  | .hbm, ⟨54, _⟩ => ⟨S12288x64, .f32⟩
  | .hbm, ⟨55, _⟩ => ⟨S12288x1, .f32⟩
  | .hbm, ⟨56, _⟩ => ⟨S12288x64, .f32⟩
  | .hbm, ⟨57, _⟩ => ⟨S_, .i32⟩
  | .hbm, ⟨58, _⟩ => ⟨S393216, .i32⟩
  | .hbm, ⟨59, _⟩ => ⟨S393216, .i1⟩
  | .hbm, ⟨60, _⟩ => ⟨S_, .i32⟩
  | .hbm, ⟨61, _⟩ => ⟨S393216, .i32⟩
  | .hbm, ⟨62, _⟩ => ⟨S393216, .i32⟩
  | .hbm, ⟨63, _⟩ => ⟨S393216, .i32⟩
  | .hbm, ⟨64, _⟩ => ⟨S393216x1, .i32⟩
  | .hbm, ⟨65, _⟩ => ⟨S393216x64, .f32⟩
  | .hbm, ⟨66, _⟩ => ⟨S393216x64, .f32⟩
  | .hbm, ⟨67, _⟩ => ⟨S393216x64, .f32⟩
  | .hbm, ⟨68, _⟩ => ⟨S_, .f32⟩
  | .hbm, ⟨69, _⟩ => ⟨S12288x64, .f32⟩
  | .hbm, ⟨70, _⟩ => ⟨S393216x1, .i32⟩
  | .hbm, ⟨71, _⟩ => ⟨S12288x64, .f32⟩
  | .hbm, ⟨72, _⟩ => ⟨S12288x1, .f32⟩
  | .hbm, ⟨73, _⟩ => ⟨S12288x64, .f32⟩
  | .hbm, ⟨74, _⟩ => ⟨S12288x64, .f32⟩
  | .hbm, ⟨75, _⟩ => ⟨S1x64, .f32⟩
  | .hbm, ⟨76, _⟩ => ⟨S12288x64, .f32⟩
  | .hbm, ⟨77, _⟩ => ⟨S12288x64, .f32⟩
  | .hbm, ⟨78, _⟩ => ⟨S12288x12288, .f32⟩
  | .local _ .vmem, ⟨0, _⟩ => ⟨S1024x2000, .f32⟩
  | .local _ .vmem, ⟨1, _⟩ => ⟨S1024x2000, .f32⟩
  | .local _ .vmem, ⟨2, _⟩ => ⟨S1024x1, .f32⟩
  | .local _ .vmem, ⟨3, _⟩ => ⟨S1024x1, .f32⟩
  | .local _ .vmem, ⟨4, _⟩ => ⟨S2000x64, .f32⟩
  | .local _ .vmem, ⟨5, _⟩ => ⟨S1024x64, .f32⟩
  | .local _ .vmem, ⟨6, _⟩ => ⟨S1024x64, .f32⟩
  | .local _ .vmem, ⟨7, _⟩ => ⟨S1024x64, .f32⟩
  | .local _ .vmem, ⟨8, _⟩ => ⟨S1024x64, .f32⟩
  | .local _ .vmem, ⟨9, _⟩ => ⟨S1024x1, .f32⟩
  | .local _ .vmem, ⟨10, _⟩ => ⟨S1024x1, .f32⟩
  | .local _ .vmem, ⟨11, _⟩ => ⟨S64x64, .f32⟩
  | .local _ .vmem, ⟨12, _⟩ => ⟨S1024x64, .f32⟩
  | .local _ .vmem, ⟨13, _⟩ => ⟨S1024x64, .f32⟩
  | .local _ .vmem, ⟨14, _⟩ => ⟨S1024x64, .f32⟩
  | .local _ .vmem, ⟨15, _⟩ => ⟨S1024x64, .f32⟩
  | .local _ .vmem, ⟨16, _⟩ => ⟨S1024x64, .f32⟩
  | .local _ .vmem, ⟨17, _⟩ => ⟨S1024x64, .f32⟩
  | .local _ .vmem, ⟨18, _⟩ => ⟨S1024x1024, .f32⟩
  | .local _ .vmem, ⟨19, _⟩ => ⟨S1024x1024, .f32⟩
  | _, _ => ⟨S12288x2000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_v4 : Ref sig .tc := ⟨.hbm, 17, rfl⟩
abbrev main_cst_2 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_3 : Ref sig .tc := ⟨.hbm, 22, rfl⟩
abbrev main_call1_v0 : Ref sig .tc := ⟨.hbm, 23, rfl⟩
abbrev main_call1_v1 : Ref sig .tc := ⟨.hbm, 24, rfl⟩
abbrev main_v8 : Ref sig .tc := ⟨.hbm, 25, rfl⟩
abbrev main_cst_4 : Ref sig .tc := ⟨.hbm, 26, rfl⟩
abbrev main_v9 : Ref sig .tc := ⟨.hbm, 27, rfl⟩
abbrev main_v10 : Ref sig .tc := ⟨.hbm, 28, rfl⟩
abbrev main_cst_5 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_6 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_7 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_c_9 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_10 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2000x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![12], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![12, 12], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  bcast_S_S393216 : S_.BroadcastsInDim S393216 (![] : Fin 0 → Fin S393216.rank)
  bcast_S_S12288 : S_.BroadcastsInDim S12288 (![] : Fin 0 → Fin S12288.rank)
  bcast_S393216_S393216x1_0 : S393216.BroadcastsInDim S393216x1 (![0] : Fin 1 → Fin S393216x1.rank)
  shapeCasts_S12288_S12288x1 : S12288.ShapeCasts S12288x1
  inb_S1024x2000_S1024x2000_0_0 : ∀ a, (![0, 0] : Fin 2 → Nat) a + S1024x2000.size a ≤ S1024x2000.size a
  h_S1024x2000 : 0 < S1024x2000.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x2000 : S1024x1.Broadcasts S1024x2000
  bitsLt_bf16_f32 : FTy.bits .bf16 < FTy.bits .f32
  inb_S2000x64_S2000x64_0_0 : ∀ a, (![0, 0] : Fin 2 → Nat) a + S2000x64.size a ≤ S2000x64.size a
  h_S2000x64 : 0 < S2000x64.numel
  inb_S1024x64_S1024x64_0_0 : ∀ a, (![0, 0] : Fin 2 → Nat) a + S1024x64.size a ≤ S1024x64.size a
  h_S1024x64 : 0 < S1024x64.numel
  bcast_S393216x1_S393216x64_0_1 : S393216x1.BroadcastsInDim S393216x64 (![0, 1] : Fin 2 → Fin S393216x64.rank)
  bcast_S_S12288x64 : S_.BroadcastsInDim S12288x64 (![] : Fin 0 → Fin S12288x64.rank)
  bcast_S12288_S12288x1_0 : S12288.BroadcastsInDim S12288x1 (![0] : Fin 1 → Fin S12288x1.rank)
  bcast_S12288x1_S12288x64_0_1 : S12288x1.BroadcastsInDim S12288x64 (![0, 1] : Fin 2 → Fin S12288x64.rank)
  bcast_S64_S1x64_1 : S64.BroadcastsInDim S1x64 (![1] : Fin 1 → Fin S1x64.rank)
  bcast_S1x64_S12288x64_0_1 : S1x64.BroadcastsInDim S12288x64 (![0, 1] : Fin 2 → Fin S12288x64.rank)
  shapeCasts_S1024x64_S1024x64 : S1024x64.ShapeCasts S1024x64
  broadcasts_S1024x1_S1024x64 : S1024x1.Broadcasts S1024x64
  inb_S64x64_S64x64_0_0 : ∀ a, (![0, 0] : Fin 2 → Nat) a + S64x64.size a ≤ S64x64.size a
  h_S64x64 : 0 < S64x64.numel
  inb_S1024x1024_S1024x1024_0_0 : ∀ a, (![0, 0] : Fin 2 → Nat) a + S1024x1024.size a ≤ S1024x1024.size a
  h_S1024x1024 : 0 < S1024x1024.numel
  scatter_S12288_S393216x1_S393216_n_0_0_1_wf : ScatterDims.WF S12288 S393216x1 S393216 [] [0] [0] 1
  dot_S1024x2000_S2000x64_S1024x64_1_0_0_1_n_n_wf : DotDims.WF S1024x2000 S2000x64 S1024x64 [1] [0] [0] [1] [] []
  gather_S12288x64_S393216x1_S393216x64_1_0_n_n_0_1_164_wf : GatherDims.WF S12288x64 S393216x1 S393216x64 [1] [0] [] [0] [] 1 ![1, 64]
  scatter_S12288x64_S393216x1_S393216x64_1_0_0_1_wf : ScatterDims.WF S12288x64 S393216x1 S393216x64 [1] [0] [0] 1
  dot_S1024x64_S64x64_S1024x64_1_0_0_1_n_n_wf : DotDims.WF S1024x64 S64x64 S1024x64 [1] [0] [0] [1] [] []
  dot_S1024x64_S1024x64_S1024x1024_1_1_0_0_n_n_wf : DotDims.WF S1024x64 S1024x64 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2000.size a ≤ S12288x2000.size a
  hwx0_0 : ∀ i : grid0.Coords, EltTy.bits .f32 = 32 ∨ (Rect.block (s := S12288x2000) S1024x2000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S12288x1.size a
  hwx0_1 : ∀ i : grid0.Coords, EltTy.bits .f32 = 32 ∨ (Rect.block (s := S12288x1) S1024x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S2000x64.size a
  hwx0_2 : ∀ i : grid0.Coords, EltTy.bits .f32 = 32 ∨ (Rect.block (s := S2000x64) S2000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S12288x64.size a
  hwx0_3 : ∀ i : grid0.Coords, EltTy.bits .f32 = 32 ∨ (Rect.block (s := S12288x64) S1024x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x64.size a ≤ S12288x64.size a
  hwx1_0 : ∀ i : grid1.Coords, EltTy.bits .f32 = 32 ∨ (Rect.block (s := S12288x64) S1024x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S12288x1.size a
  hwx1_1 : ∀ i : grid1.Coords, EltTy.bits .f32 = 32 ∨ (Rect.block (s := S12288x1) S1024x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x64.size a ≤ S12288x64.size a
  hwx1_3 : ∀ i : grid1.Coords, EltTy.bits .f32 = 32 ∨ (Rect.block (s := S12288x64) S1024x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x64.size a ≤ S12288x64.size a
  hwx2_0 : ∀ i : grid2.Coords, EltTy.bits .f32 = 32 ∨ (Rect.block (s := S12288x64) S1024x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x64.size a ≤ S12288x64.size a
  hwx2_1 : ∀ i : grid2.Coords, EltTy.bits .f32 = 32 ∨ (Rect.block (s := S12288x64) S1024x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S12288x12288.size a
  hwx2_2 : ∀ i : grid2.Coords, EltTy.bits .f32 = 32 ∨ (Rect.block (s := S12288x12288) S1024x1024.size (cc2_transform_2 i) (hinb2_2 i)).WholeWords (EltTy.packing .f32)

variable [Facts₀]

def scatter_S12288_S393216x1_S393216_n_0_0_1 : ScatterDims S12288 S393216x1 S393216 where
  updateWindowDims := []
  insertedWindowDims := [0]
  scatterDimsToOperandDims := [0]
  indexVectorDim := 1
  wf := scatter_S12288_S393216x1_S393216_n_0_0_1_wf
def dot_S1024x2000_S2000x64_S1024x64_1_0_0_1_n_n : DotDims S1024x2000 S2000x64 S1024x64 where
  lhsContracting := [1]
  rhsContracting := [0]
  lhsNonContracting := [0]
  rhsNonContracting := [1]
  lhsBatch := []
  rhsBatch := []
  wf := dot_S1024x2000_S2000x64_S1024x64_1_0_0_1_n_n_wf
def gather_S12288x64_S393216x1_S393216x64_1_0_n_n_0_1_164 : GatherDims S12288x64 S393216x1 S393216x64 where
  offsetDims := [1]
  collapsedSliceDims := [0]
  operandBatchingDims := []
  startIndicesBatchingDims := []
  startIndexMap := [0]
  indexVectorDim := 1
  sliceSizes := ![1, 64]
  wf := gather_S12288x64_S393216x1_S393216x64_1_0_n_n_0_1_164_wf
def scatter_S12288x64_S393216x1_S393216x64_1_0_0_1 : ScatterDims S12288x64 S393216x1 S393216x64 where
  updateWindowDims := [1]
  insertedWindowDims := [0]
  scatterDimsToOperandDims := [0]
  indexVectorDim := 1
  wf := scatter_S12288x64_S393216x1_S393216x64_1_0_0_1_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf

abbrev win0_0 : Pipeline.Window sig grid0 :=
  Pipeline.Window.ofSpec (Memref.whole main_arg0) S1024x2000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2000x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v32) S1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S1024x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v52) S1024x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52) S1024x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v53) S1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S12288x2000 : Shape := ⟨2, ![12288, 2000]⟩
abbrev S393216x1 : Shape := ⟨2, ![393216, 1]⟩
abbrev S2000x64 : Shape := ⟨2, ![2000, 64]⟩
abbrev S64 : Shape := ⟨1, ![64]⟩
abbrev S64x64 : Shape := ⟨2, ![64, 64]⟩
abbrev S393216 : Shape := ⟨1, ![393216]⟩
abbrev S_ : Shape := ⟨0, ![]⟩
abbrev S12288 : Shape := ⟨1, ![12288]⟩
abbrev S12288x1 : Shape := ⟨2, ![12288, 1]⟩
abbrev S12288x64 : Shape := ⟨2, ![12288, 64]⟩
abbrev S393216x64 : Shape := ⟨2, ![393216, 64]⟩
abbrev S1x64 : Shape := ⟨2, ![1, 64]⟩
abbrev S64x12288 : Shape := ⟨2, ![64, 12288]⟩
abbrev S12288x12288 : Shape := ⟨2, ![12288, 12288]⟩

abbrev nBuf : Space → Nat
  | .hbm => 84
  | .vmem => 0
  | .smem => 0
  | _ => 0

abbrev bufTy : (tb : Table) → Fin (tcTables nBuf tb) → BufTy
  | .hbm, ⟨0, _⟩ => ⟨S12288x2000, .f32⟩
  | .hbm, ⟨1, _⟩ => ⟨S393216x1, .f32⟩
  | .hbm, ⟨2, _⟩ => ⟨S2000x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S393216, .i32⟩
  | .hbm, ⟨7, _⟩ => ⟨S393216, .i32⟩
  | .hbm, ⟨8, _⟩ => ⟨S_, .f32⟩
  | .hbm, ⟨9, _⟩ => ⟨S393216, .f32⟩
  | .hbm, ⟨10, _⟩ => ⟨S_, .f32⟩
  | .hbm, ⟨11, _⟩ => ⟨S12288, .f32⟩
  | .hbm, ⟨12, _⟩ => ⟨S393216x1, .i32⟩
  | .hbm, ⟨13, _⟩ => ⟨S12288, .f32⟩
  | .hbm, ⟨14, _⟩ => ⟨S_, .f32⟩
  | .hbm, ⟨15, _⟩ => ⟨S_, .f32⟩
  | .hbm, ⟨16, _⟩ => ⟨S12288, .f32⟩
  | .hbm, ⟨17, _⟩ => ⟨S12288, .f32⟩
  | .hbm, ⟨18, _⟩ => ⟨S_, .f32⟩
  | .hbm, ⟨19, _⟩ => ⟨S12288, .f32⟩
  | .hbm, ⟨20, _⟩ => ⟨S393216x1, .i32⟩
  | .hbm, ⟨21, _⟩ => ⟨S12288, .f32⟩
  | .hbm, ⟨22, _⟩ => ⟨S_, .f32⟩
  | .hbm, ⟨23, _⟩ => ⟨S_, .f32⟩
  | .hbm, ⟨24, _⟩ => ⟨S12288, .f32⟩
  | .hbm, ⟨25, _⟩ => ⟨S12288, .f32⟩
  | .hbm, ⟨26, _⟩ => ⟨S_, .f32⟩
  | .hbm, ⟨27, _⟩ => ⟨S12288, .f32⟩
  | .hbm, ⟨28, _⟩ => ⟨S12288, .f32⟩
  | .hbm, ⟨29, _⟩ => ⟨S_, .f32⟩
  | .hbm, ⟨30, _⟩ => ⟨S12288, .f32⟩
  | .hbm, ⟨31, _⟩ => ⟨S12288, .f32⟩
  | .hbm, ⟨32, _⟩ => ⟨S12288x1, .f32⟩
  | .hbm, ⟨33, _⟩ => ⟨S12288x2000, .f32⟩
  | .hbm, ⟨34, _⟩ => ⟨S12288x2000, .f32⟩
  | .hbm, ⟨35, _⟩ => ⟨S12288x64, .f32⟩
  | .hbm, ⟨36, _⟩ => ⟨S_, .i32⟩
  | .hbm, ⟨37, _⟩ => ⟨S393216, .i32⟩
  | .hbm, ⟨38, _⟩ => ⟨S393216, .i1⟩
  | .hbm, ⟨39, _⟩ => ⟨S_, .i32⟩
  | .hbm, ⟨40, _⟩ => ⟨S393216, .i32⟩
  | .hbm, ⟨41, _⟩ => ⟨S393216, .i32⟩
  | .hbm, ⟨42, _⟩ => ⟨S393216, .i32⟩
  | .hbm, ⟨43, _⟩ => ⟨S393216x1, .i32⟩
  | .hbm, ⟨44, _⟩ => ⟨S393216x64, .f32⟩
  | .hbm, ⟨45, _⟩ => ⟨S393216x64, .f32⟩
  | .hbm, ⟨46, _⟩ => ⟨S393216x64, .f32⟩
  | .hbm, ⟨47, _⟩ => ⟨S_, .f32⟩
  | .hbm, ⟨48, _⟩ => ⟨S12288x64, .f32⟩
  | .hbm, ⟨49, _⟩ => ⟨S393216x1, .i32⟩
  | .hbm, ⟨50, _⟩ => ⟨S12288x64, .f32⟩
  | .hbm, ⟨51, _⟩ => ⟨S12288x1, .f32⟩
  | .hbm, ⟨52, _⟩ => ⟨S12288x64, .f32⟩
  | .hbm, ⟨53, _⟩ => ⟨S12288x64, .f32⟩
  | .hbm, ⟨54, _⟩ => ⟨S1x64, .f32⟩
  | .hbm, ⟨55, _⟩ => ⟨S12288x64, .f32⟩
  | .hbm, ⟨56, _⟩ => ⟨S12288x64, .f32⟩
  | .hbm, ⟨57, _⟩ => ⟨S12288x1, .f32⟩
  | .hbm, ⟨58, _⟩ => ⟨S12288x64, .f32⟩
  | .hbm, ⟨59, _⟩ => ⟨S12288x64, .f32⟩
  | .hbm, ⟨60, _⟩ => ⟨S12288x64, .f32⟩
  | .hbm, ⟨61, _⟩ => ⟨S_, .i32⟩
  | .hbm, ⟨62, _⟩ => ⟨S393216, .i32⟩
  | .hbm, ⟨63, _⟩ => ⟨S393216, .i1⟩
  | .hbm, ⟨64, _⟩ => ⟨S_, .i32⟩
  | .hbm, ⟨65, _⟩ => ⟨S393216, .i32⟩
  | .hbm, ⟨66, _⟩ => ⟨S393216, .i32⟩
  | .hbm, ⟨67, _⟩ => ⟨S393216, .i32⟩
  | .hbm, ⟨68, _⟩ => ⟨S393216x1, .i32⟩
  | .hbm, ⟨69, _⟩ => ⟨S393216x64, .f32⟩
  | .hbm, ⟨70, _⟩ => ⟨S393216x64, .f32⟩
  | .hbm, ⟨71, _⟩ => ⟨S393216x64, .f32⟩
  | .hbm, ⟨72, _⟩ => ⟨S_, .f32⟩
  | .hbm, ⟨73, _⟩ => ⟨S12288x64, .f32⟩
  | .hbm, ⟨74, _⟩ => ⟨S393216x1, .i32⟩
  | .hbm, ⟨75, _⟩ => ⟨S12288x64, .f32⟩
  | .hbm, ⟨76, _⟩ => ⟨S12288x1, .f32⟩
  | .hbm, ⟨77, _⟩ => ⟨S12288x64, .f32⟩
  | .hbm, ⟨78, _⟩ => ⟨S12288x64, .f32⟩
  | .hbm, ⟨79, _⟩ => ⟨S1x64, .f32⟩
  | .hbm, ⟨80, _⟩ => ⟨S12288x64, .f32⟩
  | .hbm, ⟨81, _⟩ => ⟨S12288x64, .f32⟩
  | .hbm, ⟨82, _⟩ => ⟨S64x12288, .f32⟩
  | .hbm, ⟨83, _⟩ => ⟨S12288x12288, .f32⟩
  | _, _ => ⟨S12288x2000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_v4 : Ref sig .tc := ⟨.hbm, 17, rfl⟩
abbrev main_cst_2 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_3 : Ref sig .tc := ⟨.hbm, 22, rfl⟩
abbrev main_call1_v0 : Ref sig .tc := ⟨.hbm, 23, rfl⟩
abbrev main_call1_v1 : Ref sig .tc := ⟨.hbm, 24, rfl⟩
abbrev main_v8 : Ref sig .tc := ⟨.hbm, 25, rfl⟩
abbrev main_cst_4 : Ref sig .tc := ⟨.hbm, 26, rfl⟩
abbrev main_v9 : Ref sig .tc := ⟨.hbm, 27, rfl⟩
abbrev main_v10 : Ref sig .tc := ⟨.hbm, 28, rfl⟩
abbrev main_cst_5 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_c : Ref sig .tc := ⟨.hbm, 36, rfl⟩
abbrev main_v17 : Ref sig .tc := ⟨.hbm, 37, rfl⟩
abbrev main_v18 : Ref sig .tc := ⟨.hbm, 38, rfl⟩
abbrev main_c_6 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_7 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c_8 : Ref sig .tc := ⟨.hbm, 61, rfl⟩
abbrev main_v39 : Ref sig .tc := ⟨.hbm, 62, rfl⟩
abbrev main_v40 : Ref sig .tc := ⟨.hbm, 63, rfl⟩
abbrev main_c_9 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_10 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩

abbrev nD : Nat := 1
abbrev τ : Topo := Topo.v7x

variable {F : FTy → Type} [FloatOps F]

class Facts₀ : Prop where
  bcast_S_S393216 : S_.BroadcastsInDim S393216 (![] : Fin 0 → Fin S393216.rank)
  bcast_S_S12288 : S_.BroadcastsInDim S12288 (![] : Fin 0 → Fin S12288.rank)
  bcast_S393216_S393216x1_0 : S393216.BroadcastsInDim S393216x1 (![0] : Fin 1 → Fin S393216x1.rank)
  bcast_S12288_S12288x1_0 : S12288.BroadcastsInDim S12288x1 (![0] : Fin 1 → Fin S12288x1.rank)
  bcast_S12288x1_S12288x2000_0_1 : S12288x1.BroadcastsInDim S12288x2000 (![0, 1] : Fin 2 → Fin S12288x2000.rank)
  bcast_S393216x1_S393216x64_0_1 : S393216x1.BroadcastsInDim S393216x64 (![0, 1] : Fin 2 → Fin S393216x64.rank)
  bcast_S_S12288x64 : S_.BroadcastsInDim S12288x64 (![] : Fin 0 → Fin S12288x64.rank)
  bcast_S12288x1_S12288x64_0_1 : S12288x1.BroadcastsInDim S12288x64 (![0, 1] : Fin 2 → Fin S12288x64.rank)
  bcast_S64_S1x64_1 : S64.BroadcastsInDim S1x64 (![1] : Fin 1 → Fin S1x64.rank)
  bcast_S1x64_S12288x64_0_1 : S1x64.BroadcastsInDim S12288x64 (![0, 1] : Fin 2 → Fin S12288x64.rank)
  transposes_S12288x64_S64x12288_1_0 : S12288x64.Transposes [1, 0] S64x12288
  scatter_S12288_S393216x1_S393216_n_0_0_1_wf : ScatterDims.WF S12288 S393216x1 S393216 [] [0] [0] 1
  dot_S12288x2000_S2000x64_S12288x64_1_0_0_1_n_n_wf : DotDims.WF S12288x2000 S2000x64 S12288x64 [1] [0] [0] [1] [] []
  gather_S12288x64_S393216x1_S393216x64_1_0_n_n_0_1_164_wf : GatherDims.WF S12288x64 S393216x1 S393216x64 [1] [0] [] [0] [] 1 ![1, 64]
  scatter_S12288x64_S393216x1_S393216x64_1_0_0_1_wf : ScatterDims.WF S12288x64 S393216x1 S393216x64 [1] [0] [0] 1
  dot_S12288x64_S64x64_S12288x64_1_0_0_1_n_n_wf : DotDims.WF S12288x64 S64x64 S12288x64 [1] [0] [0] [1] [] []
  dot_S12288x64_S64x12288_S12288x12288_1_0_0_1_n_n_wf : DotDims.WF S12288x64 S64x12288 S12288x12288 [1] [0] [0] [1] [] []

variable [Facts₀]

def scatter_S12288_S393216x1_S393216_n_0_0_1 : ScatterDims S12288 S393216x1 S393216 where
  updateWindowDims := []
  insertedWindowDims := [0]
  scatterDimsToOperandDims := [0]
  indexVectorDim := 1
  wf := scatter_S12288_S393216x1_S393216_n_0_0_1_wf
def dot_S12288x2000_S2000x64_S12288x64_1_0_0_1_n_n : DotDims S12288x2000 S2000x64 S12288x64 where
  lhsContracting := [1]
  rhsContracting := [0]
  lhsNonContracting := [0]
  rhsNonContracting := [1]
  lhsBatch := []
  rhsBatch := []
  wf := dot_S12288x2000_S2000x64_S12288x64_1_0_0_1_n_n_wf
def gather_S12288x64_S393216x1_S393216x64_1_0_n_n_0_1_164 : GatherDims S12288x64 S393216x1 S393216x64 where
  offsetDims := [1]
  collapsedSliceDims := [0]
  operandBatchingDims := []
  startIndicesBatchingDims := []
  startIndexMap := [0]
  indexVectorDim := 1
  sliceSizes := ![1, 64]
  wf := gather_S12288x64_S393216x1_S393216x64_1_0_n_n_0_1_164_wf
def scatter_S12288x64_S393216x1_S393216x64_1_0_0_1 : ScatterDims S12288x64 S393216x1 S393216x64 where
  updateWindowDims := [1]
  insertedWindowDims := [0]
  scatterDimsToOperandDims := [0]
  indexVectorDim := 1
  wf := scatter_S12288x64_S393216x1_S393216x64_1_0_0_1_wf
def dot_S12288x64_S64x64_S12288x64_1_0_0_1_n_n : DotDims S12288x64 S64x64 S12288x64 where
  lhsContracting := [1]
  rhsContracting := [0]
  lhsNonContracting := [0]
  rhsNonContracting := [1]
  lhsBatch := []
  rhsBatch := []
  wf := dot_S12288x64_S64x64_S12288x64_1_0_0_1_n_n_wf
def dot_S12288x64_S64x12288_S12288x12288_1_0_0_1_n_n : DotDims S12288x64 S64x12288 S12288x12288 where
  lhsContracting := [1]
  rhsContracting := [0]
  lhsNonContracting := [0]
  rhsNonContracting := [1]
  lhsBatch := []
  rhsBatch := []
  wf := dot_S12288x64_S64x12288_S12288x12288_1_0_0_1_n_n_wf

class Facts : Prop extends Facts₀ where

variable [Facts]
-- ==== Proof.K.Region0.lean ====
/-
  The first projection, (x · s) W, as one pipelined region over twelve row blocks.
  A grid point t sees rows 1024 t … 1024 t + 1023 of the features x (a [1024, 2000] block), the same rows of the
  column of scales s (a [1024, 1] block) and the whole weight matrix W ([2000, 64], staged once), and stores ONE
  [1024, 64] block: the matrix product of the row-scaled block with W. Nothing is carried from one point to the next.
  This module says what each window's staging buffer holds around the body at a point, for ANY contents V of the
  core's buffers at the region's entry and at any float instance: the input blocks as the array's rows, the output
  block as the body's one store read back whole (out0_3); then the body's triple and the pipeline's body obligation.
-/
import proofs.«123820_j2207613190405_1_alg».proof.Proof.Gen.Kernel.Launch
import proofs.«123820_j2207613190405_1_alg».proof.Proof.Gen.Kernel.Skeleton
import proofs.«123820_j2207613190405_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window w's block at point t: the rows (and columns) of its array that the point's index map selects. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The features' staging buffer holds the point's row block when the body runs. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The scales' staging buffer holds the point's rows of the column. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The weights' staging buffer, filled at the first point only, still holds the whole matrix at every later one:
    its block index never moves. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read or written whole -/

abbrev r0_0 : Rect S1024x2000 := Rect.unit (s := S1024x2000) ![0, 0] S1024x2000.size inb_S1024x2000_S1024x2000_0_0
abbrev r0_1 : Rect S1024x1 := Rect.unit (s := S1024x1) ![0, 0] S1024x1.size inb_S1024x1_S1024x1_0_0
abbrev r0_2 : Rect S2000x64 := Rect.unit (s := S2000x64) ![0, 0] S2000x64.size inb_S2000x64_S2000x64_0_0
abbrev r0_3 : Rect S1024x64 := Rect.unit (s := S1024x64) ![0, 0] S1024x64.size inb_S1024x64_S1024x64_0_0

/-! ## What the body leaves in the output window's buffer -/

/-- The output block after the body: its one store, of the product of the row-scaled feature block with the weights. -/
def out0_3 (x0 : Vec F S1024x2000 .f32) (x1 : Vec F S1024x1 .f32) (x2 : Vec F S2000x64 .f32) : Vec F S1024x64 .f32 :=
  View.canon [⟨r0_3, k0_pay1 (View.ld x0 r0_0) (View.ld x1 r0_1) (View.ld x2 r0_2)⟩]

/-- The one store covers the buffer. -/
theorem cover0_3 (p0 : Vec F S1024x64 .f32) (y : S1024x64.Idx) :
    ∃ pc ∈ ([⟨r0_3, p0⟩] : List (View.Piece (Elt F) S1024x64 .f32)), y ∈ pc.1.set :=
  View.cover_of_tiled [⟨r0_3, p0⟩] S1024x64.size (by rfl) y

/-! ## The body's triple -/

set_option maxHeartbeats 1000000 in
/-- On whole staging buffers, the inputs' at x0, x1, x2 and the output's at anything, the body runs to the end
    leaving the inputs as they were and the output at out0_3 x0 x1 x2. -/
theorem sound_kernel0 (c : Dev nD) (E : Set ℕ) (i : grid0.Coords) (arg1 : Memref sig .tc .vmem S1024x2000 .f32) (harg1 : arg1.IsWhole) (arg2 : Memref sig .tc .vmem S1024x1 .f32) (harg2 : arg2.IsWhole) (arg3 : Memref sig .tc .vmem S2000x64 .f32) (harg3 : arg3.IsWhole) (arg4 : Memref sig .tc .vmem S1024x64 .f32) (harg4 : arg4.IsWhole)
    (x0 : Vec F S1024x2000 .f32) (x1 : Vec F S1024x1 .f32) (x2 : Vec F S2000x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__scaled_matmul_kernel i arg1 harg1 arg2 harg2 arg3 harg3 arg4 harg4) K := by
  simp only [cc0__scaled_matmul_kernel_eq_skeleton]; unfold cc0__scaled_matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- Region 0's proof data on core c: the arrays as the region finds them; after the body at point t each input
    buffer still at its block and the output buffer at out0_3 of the three input blocks; the scoped rest and the
    generator register ride along untouched; nothing owed; every array held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the input buffers hold their blocks, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1.lean ====
/-
  The second projection, (x · s) W at the hidden width, as one pipelined region over twelve row blocks.
  A grid point t sees rows 1024 t … 1024 t + 1023 of the first layer's output x (a [1024, 64] block), the same rows of the
  column of scales s (a [1024, 1] block) and the whole weight matrix W ([64, 64], staged once), and stores ONE
  [1024, 64] block: the matrix product of the row-scaled block with W. Nothing is carried from one point to the next.
  This module says what each window's staging buffer holds around the body at a point, for ANY contents V of the
  core's buffers at the region's entry and at any float instance: the input blocks as the array's rows, the output
  block as the body's one store read back whole (out1_3); then the body's triple and the pipeline's body obligation.
-/
import proofs.«123820_j2207613190405_1_alg».proof.Proof.Gen.Kernel.Launch
import proofs.«123820_j2207613190405_1_alg».proof.Proof.Gen.Kernel.Skeleton
import proofs.«123820_j2207613190405_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window w's block at point t: the rows (and columns) of its array that the point's index map selects. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The features' staging buffer holds the point's row block when the body runs. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The scales' staging buffer holds the point's rows of the column. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The weights' staging buffer, filled at the first point only, still holds the whole matrix at every later one:
    its block index never moves. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer is read or written whole -/

abbrev r1_0 : Rect S1024x64 := Rect.unit (s := S1024x64) ![0, 0] S1024x64.size inb_S1024x64_S1024x64_0_0
abbrev r1_1 : Rect S1024x1 := Rect.unit (s := S1024x1) ![0, 0] S1024x1.size inb_S1024x1_S1024x1_0_0
abbrev r1_2 : Rect S64x64 := Rect.unit (s := S64x64) ![0, 0] S64x64.size inb_S64x64_S64x64_0_0
abbrev r1_3 : Rect S1024x64 := Rect.unit (s := S1024x64) ![0, 0] S1024x64.size inb_S1024x64_S1024x64_0_0

/-! ## What the body leaves in the output window's buffer -/

/-- The output block after the body: its one store, of the product of the row-scaled feature block with the weights. -/
def out1_3 (x0 : Vec F S1024x64 .f32) (x1 : Vec F S1024x1 .f32) (x2 : Vec F S64x64 .f32) : Vec F S1024x64 .f32 :=
  View.canon [⟨r1_3, k1_pay1 (View.ld x0 r1_0) (View.ld x1 r1_1) (View.ld x2 r1_2)⟩]

/-- The one store covers the buffer. -/
theorem cover1_3 (p0 : Vec F S1024x64 .f32) (y : S1024x64.Idx) :
    ∃ pc ∈ ([⟨r1_3, p0⟩] : List (View.Piece (Elt F) S1024x64 .f32)), y ∈ pc.1.set :=
  View.cover_of_tiled [⟨r1_3, p0⟩] S1024x64.size (by rfl) y

/-! ## The body's triple -/

set_option maxHeartbeats 1000000 in
/-- On whole staging buffers, the inputs' at x0, x1, x2 and the output's at anything, the body runs to the end
    leaving the inputs as they were and the output at out1_3 x0 x1 x2. -/
theorem sound_kernel1 (c : Dev nD) (E : Set ℕ) (i : grid1.Coords) (arg1 : Memref sig .tc .vmem S1024x64 .f32) (harg1 : arg1.IsWhole) (arg2 : Memref sig .tc .vmem S1024x1 .f32) (harg2 : arg2.IsWhole) (arg3 : Memref sig .tc .vmem S64x64 .f32) (harg3 : arg3.IsWhole) (arg4 : Memref sig .tc .vmem S1024x64 .f32) (harg4 : arg4.IsWhole)
    (x0 : Vec F S1024x64 .f32) (x1 : Vec F S1024x1 .f32) (x2 : Vec F S64x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__scaled_matmul_kernel i arg1 harg1 arg2 harg2 arg3 harg3 arg4 harg4) K := by
  simp only [cc1__scaled_matmul_kernel_eq_skeleton]; unfold cc1__scaled_matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- Region 1's proof data on core c: the arrays as the region finds them; after the body at point t each input
    buffer still at its block and the output buffer at out1_3 of the three input blocks; the scoped rest and the
    generator register ride along untouched; nothing owed; every array held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the input buffers hold their blocks, so the triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Region2.lean ====
/-
  The decode, x xᵀ, as one pipelined region over a 12 × 12 grid of [1024, 1024] output blocks.
  Grid point (a, b) sees rows 1024 a … of x through one window and rows 1024 b … of THE SAME array x through a
  second window (two [1024, 64] blocks), and stores ONE [1024, 1024] block: the products of the rows of the first block
  with the rows of the second, contracted over the 64 columns. Nothing is carried from one point to the next.
  Both input windows read one array, so the array is held at two half shares, one per window (dat2's q); the output's
  array is held whole. As for the projections: the blocks, the one store read back whole (out2_2), the body's triple
  and the pipeline's body obligation, for any contents V at the region's entry and any float instance.
-/
import proofs.«123820_j2207613190405_1_alg».proof.Proof.Gen.Kernel.Launch
import proofs.«123820_j2207613190405_1_alg».proof.Proof.Gen.Kernel.Skeleton
import proofs.«123820_j2207613190405_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window w's block at point t: the rows (and columns) of its array that the point's index map selects. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left factor's staging buffer, refilled only when the grid's first coordinate moves, holds the point's row
    block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The right factor's staging buffer holds the point's row block. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer is read or written whole -/

abbrev r2_0 : Rect S1024x64 := Rect.unit (s := S1024x64) ![0, 0] S1024x64.size inb_S1024x64_S1024x64_0_0
abbrev r2_2 : Rect S1024x1024 := Rect.unit (s := S1024x1024) ![0, 0] S1024x1024.size inb_S1024x1024_S1024x1024_0_0

/-! ## What the body leaves in the output window's buffer -/

/-- The output block after the body: its one store, of the rows of the first block against the rows of the second. -/
def out2_2 (x0 : Vec F S1024x64 .f32) (x1 : Vec F S1024x64 .f32) : Vec F S1024x1024 .f32 :=
  View.canon [⟨r2_2, k2_pay1 (View.ld x0 r2_0) (View.ld x1 r2_0)⟩]

/-- The one store covers the buffer. -/
theorem cover2_2 (p0 : Vec F S1024x1024 .f32) (y : S1024x1024.Idx) :
    ∃ pc ∈ ([⟨r2_2, p0⟩] : List (View.Piece (Elt F) S1024x1024 .f32)), y ∈ pc.1.set :=
  View.cover_of_tiled [⟨r2_2, p0⟩] S1024x1024.size (by rfl) y

/-! ## The body's triple -/

set_option maxHeartbeats 1000000 in
/-- On whole staging buffers, the inputs' at x0, x1 and the output's at anything, the body runs to the end leaving
    the inputs as they were and the output at out2_2 x0 x1. -/
theorem sound_kernel2 (c : Dev nD) (E : Set ℕ) (i : grid2.Coords) (arg2 : Memref sig .tc .vmem S1024x64 .f32) (harg2 : arg2.IsWhole) (arg3 : Memref sig .tc .vmem S1024x64 .f32) (harg3 : arg3.IsWhole) (arg4 : Memref sig .tc .vmem S1024x1024 .f32) (harg4 : arg4.IsWhole)
    (x0 : Vec F S1024x64 .f32) (x1 : Vec F S1024x64 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out2_2 x0 x1)) -∗ K ⟨⟩))
      ⊢ wp frame (wpE (defs₀ (F := F)) Variants.none c none) E (cc2__decode_kernel i arg2 harg2 arg3 harg3 arg4 harg4) K := by
  simp only [cc2__decode_kernel_eq_skeleton]; unfold cc2__decode_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- Region 2's proof data on core c: the arrays as the region finds them; after the body at point t each input
    buffer still at its block and the output buffer at out2_2 of the two input blocks; the scoped rest and the
    generator register ride along untouched; nothing owed. The one array both input windows read is held at the left
    half share by window 0 and at the right half share by window 1. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q w := match w with
    | ⟨0, _⟩ => fullShare.left
    | ⟨1, _⟩ => fullShare.right
    | ⟨2, _⟩ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- The shares the arrays are held at: the two halves for the shared input, the whole for the output. -/
theorem share2_0 (c : Dev nD) : (dat2 V c).share 0 = fullShare.left := rfl
theorem share2_1 (c : Dev nD) : (dat2 V c).share 1 = fullShare.right := rfl
theorem share2_2 (c : Dev nD) : (dat2 V c).share 2 = fullShare := rfl

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the input buffers hold their blocks, so the triple applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Fold.lean ====
/-
  The contents of the core's buffers at each boundary of @main, folded from the launch memory m:
  after the five host stretches that compute the two degree norms (W5, the generated V5), after the first projection
  (W6: its output array at what its twelve write-backs leave, every other buffer as before), after the first
  gather / scatter stretch (W7), after the second projection (W8), after the second stretch (W9), after the decode (W10).
  The regions' proof data are taken at these entry contents (E0, E1, E2).
-/
import proofs.«123820_j2207613190405_1_alg».proof.Proof.K.Region0
import proofs.«123820_j2207613190405_1_alg».proof.Proof.K.Region1
import proofs.«123820_j2207613190405_1_alg».proof.Proof.K.Region2
import proofs.«123820_j2207613190405_1_alg».proof.Proof.Gen.Kernel.Regions
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- After the host stretches before the first region. -/
abbrev W5 : Dev nD → Valuation τ sig (Elt F) := fun c => Gen.V5 m c
/-- The same read at the core's own references: what region 0 is entered with. -/
abbrev E0 : (c : Dev nD) → (b : Ref sig .tc) → Buf (Elt F) ((c : Thread nD τ).loc b) := fun c b => W5 m c b
/-- After region 0: its arrays at what the pipeline leaves, every other buffer as entered. -/
def W6 (c : Dev nD) : Valuation τ sig (Elt F) :=
  Pipeline.withArrays spec0 c (W5 m c) fun w => (dat0 (E0 m) c).arrAt w cfg0.N
/-- After the first gather / scatter stretch. -/
abbrev W7 : Dev nD → Valuation τ sig (Elt F) := fun c => StableHlo.after hostOps1 (W6 m c)
abbrev E1 : (c : Dev nD) → (b : Ref sig .tc) → Buf (Elt F) ((c : Thread nD τ).loc b) := fun c b => W7 m c b
/-- After region 1. -/
def W8 (c : Dev nD) : Valuation τ sig (Elt F) :=
  Pipeline.withArrays spec1 c (W7 m c) fun w => (dat1 (E1 m) c).arrAt w cfg1.N
/-- After the second gather / scatter stretch. -/
abbrev W9 : Dev nD → Valuation τ sig (Elt F) := fun c => StableHlo.after hostOps2 (W8 m c)
abbrev E2 : (c : Dev nD) → (b : Ref sig .tc) → Buf (Elt F) ((c : Thread nD τ).loc b) := fun c b => W9 m c b
/-- After region 2: the decode's output array at what its 144 write-backs leave, every other buffer as entered
    (its two input windows read one array and write nothing). -/
def W10 (c : Dev nD) : Valuation τ sig (Elt F) :=
  Function.update (W9 m c) (Proc.devRef .tc main_v53) ((dat2 (E2 m) c).arrAt 2 cfg2.N)

theorem W6_arr (c : Dev nD) (w : Fin cfg0.W) :
    W6 m c (Proc.devRef .tc (Pipeline.arrRef spec0 w)) = (dat0 (E0 m) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m c (Proc.devRef .tc b) = W5 m c (Proc.devRef .tc b) := by
  unfold W6; exact Pipeline.withArrays_of_ne spec0 c _ _ b hb
theorem W8_arr (c : Dev nD) (w : Fin cfg1.W) :
    W8 m c (Proc.devRef .tc (Pipeline.arrRef spec1 w)) = (dat1 (E1 m) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m c (Proc.devRef .tc b) = W7 m c (Proc.devRef .tc b) := by
  unfold W8; exact Pipeline.withArrays_of_ne spec1 c _ _ b hb
theorem W10_out (c : Dev nD) : W10 m c (Proc.devRef .tc main_v53) = (dat2 (E2 m) c).arrAt 2 cfg2.N := by
  unfold W10; exact Function.update_self ..
theorem W10_of_ne (c : Dev nD) (b : Ref sig .tc) (hb : b ≠ main_v53) :
    W10 m c (Proc.devRef .tc b) = W9 m c (Proc.devRef .tc b) := by
  unfold W10; exact Function.update_of_ne (StableHlo.devRef_ne_of_ne hb) ..

end Cert.Kernel.Hand

end
-- ==== Proof.K.Run.lean ====
/-
  The run of @main: five host stretches, the first projection, a gather / scatter stretch, the second projection, a
  second stretch, the decode. Each kernel region is entered from "every unscoped buffer of the core at the contents the
  item before left" and left at the same with the region's output array rewritten; what rides along is the core's
  generator register and that it owes nothing. Every weakly fair execution terminates, and at the end every unscoped
  buffer holds what the fold W10 says: the arguments as launched, the results at the regions' and stretches' values.
  The decode reads ONE array through two windows: at its entry the array's full share is split into the two halves its
  windows hold, and at its exit the halves, both still at the entry contents, are joined again.
-/
import proofs.«123820_j2207613190405_1_alg».proof.Proof.K.Fold
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions' exit contents read at the core's own references -/

abbrev O0 : (c : Dev nD) → (b : Ref sig .tc) → Buf (Elt F) ((c : Thread nD τ).loc b) := fun c b => W6 m c b
abbrev O1 : (c : Dev nD) → (b : Ref sig .tc) → Buf (Elt F) ((c : Thread nD τ).loc b) := fun c b => W8 m c b
abbrev O2 : (c : Dev nD) → (b : Ref sig .tc) → Buf (Elt F) ((c : Thread nD τ).loc b) := fun c b => W10 m c b

theorem hF0 (c : Dev nD) (w : Fin cfg0.W) : (dat0 (E0 m) c).arrAt w cfg0.N = O0 m c (Pipeline.arrRef spec0 w) :=
  (W6_arr m c w).symm
theorem hrest0 (c : Dev nD) : ∀ b, b ∉ Finset.univ.image (Pipeline.arrRef spec0) → O0 m c b = E0 m c b :=
  fun b hb => W6_of_ne m c b fun w e => hb (Finset.mem_image.mpr ⟨w, Finset.mem_univ _, e⟩)
theorem hF1 (c : Dev nD) (w : Fin cfg1.W) : (dat1 (E1 m) c).arrAt w cfg1.N = O1 m c (Pipeline.arrRef spec1 w) :=
  (W8_arr m c w).symm
theorem hrest1 (c : Dev nD) : ∀ b, b ∉ Finset.univ.image (Pipeline.arrRef spec1) → O1 m c b = E1 m c b :=
  fun b hb => W8_of_ne m c b fun w e => hb (Finset.mem_image.mpr ⟨w, Finset.mem_univ _, e⟩)

/-! ## The proof data family and the thread state -/

/-- Every region's proof data, each at its region's entry contents. -/
def pdats : (p : Fin 3) → (c : Dev nD) → Dat τ (Elt F) Unit ℕ (UR sig nD τ) ℕ (Pipeline.pin (pcfgs (F := F)) Gen.adm p) c
  | ⟨0, _⟩ => fun c => dat0 (E0 m) c
  | ⟨1, _⟩ => fun c => dat1 (E1 m) c
  | ⟨2, _⟩ => fun c => dat2 (E2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without what the core owes: every unscoped buffer at W10, the generator register. -/
abbrev Tₙ (c : Dev nD) : sProp 𝕄 := iprop(StableHlo.held (c : Thread nD τ) (Pipeline.ucRefs τ sig) (W10 m c) ∗ ∃ r, prngReg c r)

/-! ## The decode's arrays among the core's unscoped buffers -/

/-- The two distinct buffers behind the decode's three windows. -/
theorem arrBufs2_eq (c : Dev nD) (V : (b : Ref sig .tc) → Buf (Elt F) ((c : Thread nD τ).loc b)) :
    (Pipeline.arrBufs (Ix := Unit) (Name := ℕ) (U := UR sig nD τ) (Lvl := ℕ) spec2 c V : sProp 𝕄)
      = iprop((((c : Thread nD τ).loc main_v52) ↦{fullShare} V main_v52) ∗ (((c : Thread nD τ).loc main_v53) ↦{fullShare} V main_v53)) := by
  unfold Pipeline.arrBufs
  rw [show Finset.univ.image (Pipeline.arrRef spec2) = insert main_v52 {main_v53} from by decide,
    bigSep_insert (by decide), BI.bigSep_singleton]
  rfl

/-- The decode's arrays as its proof data hold them: the shared input at the two half shares, the output whole. -/
theorem arrays2_eq (Vf : (c : Dev nD) → (b : Ref sig .tc) → Buf (Elt F) ((c : Thread nD τ).loc b)) (c : Dev nD)
    (G : (w : Fin cfg2.W) → Buf (Elt F) ((cfg2.win w).arr.view.loc (c : Thread nD τ))) :
    ((dat2 Vf c).arrays G : sProp 𝕄)
      = iprop((((c : Thread nD τ).loc main_v52) ↦{fullShare.left} G 0) ∗ (((c : Thread nD τ).loc main_v52) ↦{fullShare.right} G 1)
          ∗ (((c : Thread nD τ).loc main_v53) ↦{fullShare} G 2)) := by
  unfold Dat.arrays
  rw [bigSep_W2, (arr_whole2 0).set_eq_univ, (arr_whole2 2).set_eq_univ, share2_0, share2_1, share2_2]

/-- ENTRY: the core's unscoped buffers at V are the decode's arrays at their entry contents — the shared input's full
    share split into its two halves — and the rest. -/
theorem arrays2_of_unscopedBufs (Vf : (c : Dev nD) → (b : Ref sig .tc) → Buf (Elt F) ((c : Thread nD τ).loc b)) (c : Dev nD) :
    (unscopedBufs (Ix := Unit) (Name := ℕ) (U := UR sig nD τ) (Lvl := ℕ) c (Vf c) : sProp 𝕄)
      ⊢ iprop((dat2 Vf c).arrays ((dat2 Vf c).arrAt · 0) ∗ Pipeline.unscopedRest spec2 c (Vf c)) := by
  rw [Pipeline.unscopedBufs_split₀ cfgs 2 winFacts₀2.arr_unscoped c (Vf c)]
  show iprop(Pipeline.arrBufs spec2 c (Vf c) ∗ Pipeline.unscopedRest spec2 c (Vf c)) ⊢ _
  rw [arrBufs2_eq, arrays2_eq]
  iintro ⟨⟨H52, H53⟩, Hrest⟩
  isplitr [Hrest]
  swap; · iexact Hrest
  ihave Hh := (pointsTo_share (PosShare.mem_left_op_right fullShare)).1 $$ H52
  icases Hh with ⟨Hl, Hr⟩
  isplitl [Hl]; · iexact Hl
  isplitl [Hr]; · iexact Hr
  iexact H53

/-- EXIT: the decode's arrays at their final contents — the shared input's two halves, both still at the entry
    contents, joined — and the rest are the core's unscoped buffers at any valuation that has the output array at what
    the write-backs leave and agrees with the entry contents elsewhere. -/
theorem unscopedBufs_of_arrays2 (Vf : (c : Dev nD) → (b : Ref sig .tc) → Buf (Elt F) ((c : Thread nD τ).loc b)) (c : Dev nD)
    (V' : (b : Ref sig .tc) → Buf (Elt F) ((c : Thread nD τ).loc b))
    (hout : V' main_v53 = (dat2 Vf c).arrAt 2 cfg2.N) (hrest : ∀ b, b ≠ main_v53 → V' b = Vf c b) :
    iprop((dat2 Vf c).arrays ((dat2 Vf c).arrAt · cfg2.N) ∗ Pipeline.unscopedRest spec2 c (Vf c))
      ⊢ (unscopedBufs (Ix := Unit) (Name := ℕ) (U := UR sig nD τ) (Lvl := ℕ) c V' : sProp 𝕄) := by
  rw [Pipeline.unscopedBufs_split₀ cfgs 2 winFacts₀2.arr_unscoped c V']
  show _ ⊢ iprop(Pipeline.arrBufs spec2 c V' ∗ Pipeline.unscopedRest spec2 c V')
  rw [arrBufs2_eq, arrays2_eq,
    show (dat2 Vf c).arrAt 0 cfg2.N = Vf c main_v52 from ((dat2 Vf c).arrAt_in 0 rfl _).trans (A_eq2 Vf c 0),
    show (dat2 Vf c).arrAt 1 cfg2.N = Vf c main_v52 from ((dat2 Vf c).arrAt_in 1 rfl _).trans (A_eq2 Vf c 1),
    hout, hrest main_v52 (by decide),
    show (Pipeline.unscopedRest (Ix := Unit) (Name := ℕ) (U := UR sig nD τ) (Lvl := ℕ) spec2 c V' : sProp 𝕄) = Pipeline.unscopedRest spec2 c (Vf c) from by
      unfold Pipeline.unscopedRest
      exact bigSep_congr fun b hb => by
        rw [hrest b fun e => (Finset.mem_sdiff.mp hb).2 (Finset.mem_image.mpr ⟨2, Finset.mem_univ _, e.symm⟩)]]
  iintro ⟨⟨Hl, Hr, H53⟩, Hrest⟩
  isplitr [Hrest]
  swap; · iexact Hrest
  isplitr [H53]
  swap; · iexact H53
  iapply (pointsTo_share (PosShare.mem_left_op_right fullShare)).2
  isplitl [Hl]; · iexact Hl
  iexact Hr

/-! ## The regions as segments -/

set_option backward.isDefEq.respectTransparency.types false in
/-- The first projection: entered from every unscoped buffer at W5, left at W6. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E0 m c) (O0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second projection: entered from every unscoped buffer at W7, left at W8. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (E1 m c) (O1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The decode: entered from every unscoped buffer at W9, left at W10; its two input windows share one array. -/
def reg2 : Pipeline.RegionSeg (pcfgs (F := F)) Gen.adm (pdats m) () defs₀ 𝒱₀ L lv 2 where
  win := winFacts₀2
  block_pos := block_pos2
  stage_whole := stage_whole2
  K := PEmpty
  osem k := k.elim
  ho := Pipeline.OwnSemFacts.none _
  hbody c := (body_obligation2 (E2 m) c).loose
  hwaits := Pipeline.hwaits_of_owed_zero _ _ _ _ L lv 2 fun _ _ => rfl
  pre c := iprop(StableHlo.held (c : Thread nD τ) (Pipeline.ucRefs τ sig) (W9 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit : (unscopedBufs (Ix := Unit) (Name := ℕ) (U := UR sig nD τ) (Lvl := ℕ) c (E2 m c) : sProp 𝕄)
        ⊢ iprop((pdats m 2 c).arrays ((pdats m 2 c).arrAt · 0) ∗ Pipeline.unscopedRest spec2 c (E2 m c)) := arrays2_of_unscopedBufs (E2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m 2 c).arrays ((pdats m 2 c).arrAt · cfg2.N) ∗ Pipeline.unscopedRest spec2 c (E2 m c))
        ⊢ (unscopedBufs (Ix := Unit) (Name := ℕ) (U := UR sig nD τ) (Lvl := ℕ) c (O2 m c) : sProp 𝕄) :=
      unscopedBufs_of_arrays2 (E2 m) c (O2 m c) (W10_out m c) (fun b hb => W10_of_ne m c b hb)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's ten items in order. -/
abbrev segs : List (Pipeline.Seg (pcfgs (F := F)) Gen.adm (pdats m) () defs₀ 𝒱₀ L lv) :=
  [ .host (hseg hostOps0 hostOps0_sub Gen.hostOps0_fresh (Gen.V0 m)),
    .host (hseg hostOps0_1 hostOps0_1_sub Gen.hostOps0_1_fresh (Gen.V1 m)),
    .host (hseg hostOps0_2 hostOps0_2_sub Gen.hostOps0_2_fresh (Gen.V2 m)),
    .host (hseg hostOps0_3 hostOps0_3_sub Gen.hostOps0_3_fresh (Gen.V3 m)),
    .host (hseg hostOps0_4 hostOps0_4_sub Gen.hostOps0_4_fresh (Gen.V4 m)),
    .region (reg0 m),
    .host (hseg hostOps1 hostOps1_sub Gen.hostOps1_fresh (W6 m)),
    .region (reg1 m),
    .host (hseg hostOps2 hostOps2_sub Gen.hostOps2_fresh (W8 m)),
    .region (reg2 m) ]

set_option backward.isDefEq.respectTransparency.types false in
/-- THE RUN: from any memory with zero counters every weakly fair execution of @main terminates, nothing faulting, and
    every final memory holds each unscoped buffer of each core at the fold W10. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W10 m c b) :=
  Pipeline.θ_run_regions_kit (pcfgs (F := F)) Gen.adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c => h c)

/-- An unscoped reference of the core is among those the run reads. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Hand

end
-- ==== Proof.K.Kept.lean ====
/-
  What the fold of buffer contents leaves alone: a reference that no host stretch writes and that is no region's
  output array holds at every boundary of @main what it held at launch. In particular each of the eight argument
  arrays ends as launched, and the two degree norms computed before the first region reach every later item unchanged.
-/
import proofs.«123820_j2207613190405_1_alg».proof.Proof.K.Fold

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- A reference none of the five host stretches before the first region writes holds its launch contents there. -/
theorem keep5 (c : Dev nD) (r : Ref sig .tc) (h0 : r ∉ Gen.hostOps0_W) (h1 : r ∉ Gen.hostOps0_1_W) (h2 : r ∉ Gen.hostOps0_2_W)
    (h3 : r ∉ Gen.hostOps0_3_W) (h4 : r ∉ Gen.hostOps0_4_W) : W5 m c r = m ((c : Thread nD τ).loc r) :=
  (Gen.V5_of m c r h4).trans <| (Gen.V4_of m c r h3).trans <| (Gen.V3_of m c r h2).trans <| (Gen.V2_of m c r h1).trans <| (Gen.V1_of m c r h0).trans rfl

/-- The first region changes its output array only. -/
theorem keep6 (c : Dev nD) (r : Ref sig .tc) (h : r ≠ main_v14) (hin : r = main_arg0 ∨ r = main_v13 ∨ r = main_arg2 ∨ ∀ w, Pipeline.arrRef spec0 w ≠ r) :
    W6 m c r = W5 m c r := by
  rcases hin with rfl | rfl | rfl | hne
  · exact (W6_arr m c 0).trans (((dat0 (E0 m) c).arrAt_in 0 rfl _).trans (A_eq0 (E0 m) c 0))
  · exact (W6_arr m c 1).trans (((dat0 (E0 m) c).arrAt_in 1 rfl _).trans (A_eq0 (E0 m) c 1))
  · exact (W6_arr m c 2).trans (((dat0 (E0 m) c).arrAt_in 2 rfl _).trans (A_eq0 (E0 m) c 2))
  · exact W6_of_ne m c r hne

/-- The first gather / scatter stretch leaves what it does not write. -/
theorem keep7 (c : Dev nD) (r : Ref sig .tc) (h : r ∉ Gen.hostOps1_W) : W7 m c r = W6 m c r :=
  StableHlo.after_of_writes_sub hostOps1 _ Gen.hostOps1_writes h

/-- The second region changes its output array only. -/
theorem keep8 (c : Dev nD) (r : Ref sig .tc) (h : r ≠ main_v34) (hin : r = main_v32 ∨ r = main_v33 ∨ r = main_arg4 ∨ ∀ w, Pipeline.arrRef spec1 w ≠ r) :
    W8 m c r = W7 m c r := by
  rcases hin with rfl | rfl | rfl | hne
  · exact (W8_arr m c 0).trans (((dat1 (E1 m) c).arrAt_in 0 rfl _).trans (A_eq1 (E1 m) c 0))
  · exact (W8_arr m c 1).trans (((dat1 (E1 m) c).arrAt_in 1 rfl _).trans (A_eq1 (E1 m) c 1))
  · exact (W8_arr m c 2).trans (((dat1 (E1 m) c).arrAt_in 2 rfl _).trans (A_eq1 (E1 m) c 2))
  · exact W8_of_ne m c r hne

/-- The second gather / scatter stretch leaves what it does not write. -/
theorem keep9 (c : Dev nD) (r : Ref sig .tc) (h : r ∉ Gen.hostOps2_W) : W9 m c r = W8 m c r :=
  StableHlo.after_of_writes_sub hostOps2 _ Gen.hostOps2_writes h

/-- The decode changes its output array only. -/
theorem keep10 (c : Dev nD) (r : Ref sig .tc) (h : r ≠ main_v53) : W10 m c r = W9 m c r := W10_of_ne m c r h

/-- An argument array, written by nothing, read by the regions through input windows at most: as launched at the end. -/
theorem kept_arg (c : Dev nD) (r : Ref sig .tc)
    (h0 : r ∉ Gen.hostOps0_W) (h1 : r ∉ Gen.hostOps0_1_W) (h2 : r ∉ Gen.hostOps0_2_W) (h3 : r ∉ Gen.hostOps0_3_W) (h4 : r ∉ Gen.hostOps0_4_W)
    (h6 : r ≠ main_v14) (h6' : r = main_arg0 ∨ r = main_v13 ∨ r = main_arg2 ∨ ∀ w, Pipeline.arrRef spec0 w ≠ r)
    (h7 : r ∉ Gen.hostOps1_W)
    (h8 : r ≠ main_v34) (h8' : r = main_v32 ∨ r = main_v33 ∨ r = main_arg4 ∨ ∀ w, Pipeline.arrRef spec1 w ≠ r)
    (h9 : r ∉ Gen.hostOps2_W) (h10 : r ≠ main_v53) : W10 m c r = m ((c : Thread nD τ).loc r) :=
  (keep10 m c r h10).trans <| (keep9 m c r h9).trans <| (keep8 m c r h8 h8').trans <| (keep7 m c r h7).trans <|
    (keep6 m c r h6 h6').trans (keep5 m c r h0 h1 h2 h3 h4)

theorem W10_main_arg0 (c : Dev nD) : W10 m c main_arg0 = m ((c : Thread nD τ).loc main_arg0) :=
  kept_arg m c main_arg0 (by decide) (by decide) (by decide) (by decide) (by decide) (by decide) (.inl rfl) (by decide) (by decide) (.inr (.inr (.inr (by decide)))) (by decide) (by decide)
theorem W10_main_arg1 (c : Dev nD) : W10 m c main_arg1 = m ((c : Thread nD τ).loc main_arg1) :=
  kept_arg m c main_arg1 (by decide) (by decide) (by decide) (by decide) (by decide) (by decide) (.inr (.inr (.inr (by decide)))) (by decide) (by decide) (.inr (.inr (.inr (by decide)))) (by decide) (by decide)
theorem W10_main_arg2 (c : Dev nD) : W10 m c main_arg2 = m ((c : Thread nD τ).loc main_arg2) :=
  kept_arg m c main_arg2 (by decide) (by decide) (by decide) (by decide) (by decide) (by decide) (.inr (.inr (.inl rfl))) (by decide) (by decide) (.inr (.inr (.inr (by decide)))) (by decide) (by decide)
theorem W10_main_arg3 (c : Dev nD) : W10 m c main_arg3 = m ((c : Thread nD τ).loc main_arg3) :=
  kept_arg m c main_arg3 (by decide) (by decide) (by decide) (by decide) (by decide) (by decide) (.inr (.inr (.inr (by decide)))) (by decide) (by decide) (.inr (.inr (.inr (by decide)))) (by decide) (by decide)
theorem W10_main_arg4 (c : Dev nD) : W10 m c main_arg4 = m ((c : Thread nD τ).loc main_arg4) :=
  kept_arg m c main_arg4 (by decide) (by decide) (by decide) (by decide) (by decide) (by decide) (.inr (.inr (.inr (by decide)))) (by decide) (by decide) (.inr (.inr (.inl rfl))) (by decide) (by decide)
theorem W10_main_arg5 (c : Dev nD) : W10 m c main_arg5 = m ((c : Thread nD τ).loc main_arg5) :=
  kept_arg m c main_arg5 (by decide) (by decide) (by decide) (by decide) (by decide) (by decide) (.inr (.inr (.inr (by decide)))) (by decide) (by decide) (.inr (.inr (.inr (by decide)))) (by decide) (by decide)
theorem W10_main_arg6 (c : Dev nD) : W10 m c main_arg6 = m ((c : Thread nD τ).loc main_arg6) :=
  kept_arg m c main_arg6 (by decide) (by decide) (by decide) (by decide) (by decide) (by decide) (.inr (.inr (.inr (by decide)))) (by decide) (by decide) (.inr (.inr (.inr (by decide)))) (by decide) (by decide)
theorem W10_main_arg7 (c : Dev nD) : W10 m c main_arg7 = m ((c : Thread nD τ).loc main_arg7) :=
  kept_arg m c main_arg7 (by decide) (by decide) (by decide) (by decide) (by decide) (by decide) (.inr (.inr (.inr (by decide)))) (by decide) (by decide) (.inr (.inr (.inr (by decide)))) (by decide) (by decide)

end Cert.Kernel.Hand

end
-- ==== Proof.K.Frame.lean ====
/-
  The frame: every weakly fair execution of @main terminates, nothing faulting, and the eight argument arrays end
  holding what they held at launch. It is the run read at the arguments: each is an unscoped buffer that no host stretch
  writes and that the regions at most read.
-/
import proofs.«123820_j2207613190405_1_alg».proof.Proof.K.Run
import proofs.«123820_j2207613190405_1_alg».proof.Proof.K.Kept

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_arg0 (by decide))).trans (W10_main_arg0 m c),
     (h c _ (mem_uc main_arg1 (by decide))).trans (W10_main_arg1 m c),
     (h c _ (mem_uc main_arg2 (by decide))).trans (W10_main_arg2 m c),
     (h c _ (mem_uc main_arg3 (by decide))).trans (W10_main_arg3 m c),
     (h c _ (mem_uc main_arg4 (by decide))).trans (W10_main_arg4 m c),
     (h c _ (mem_uc main_arg5 (by decide))).trans (W10_main_arg5 m c),
     (h c _ (mem_uc main_arg6 (by decide))).trans (W10_main_arg6 m c),
     (h c _ (mem_uc main_arg7 (by decide))).trans (W10_main_arg7 m c)⟩) (run_all m ρ)

end Cert.Kernel.Hand

end
-- ==== Proof.KI.Region0.lean ====
/-
  The first projection, (x · s) W, as one pipelined region over twelve row blocks.
  A grid point t sees rows 1024 t … 1024 t + 1023 of the features x (a [1024, 2000] block), the same rows of the
  column of scales s (a [1024, 1] block) and the whole weight matrix W ([2000, 64], staged once), and stores ONE
  [1024, 64] block: the matrix product of the row-scaled block with W. Nothing is carried from one point to the next.
  This module says what each window's staging buffer holds around the body at a point, for ANY contents V of the
  core's buffers at the region's entry and at any float instance: the input blocks as the array's rows, the output
  block as the body's one store read back whole (out0_3); then the body's triple and the pipeline's body obligation.
-/
import proofs.«123820_j2207613190405_1_alg».proof.Proof.Gen.KernelIdeal.Launch
import proofs.«123820_j2207613190405_1_alg».proof.Proof.Gen.KernelIdeal.Skeleton
import proofs.«123820_j2207613190405_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window w's block at point t: the rows (and columns) of its array that the point's index map selects. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The features' staging buffer holds the point's row block when the body runs. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The scales' staging buffer holds the point's rows of the column. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The weights' staging buffer, filled at the first point only, still holds the whole matrix at every later one:
    its block index never moves. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read or written whole -/

abbrev r0_0 : Rect S1024x2000 := Rect.unit (s := S1024x2000) ![0, 0] S1024x2000.size inb_S1024x2000_S1024x2000_0_0
abbrev r0_1 : Rect S1024x1 := Rect.unit (s := S1024x1) ![0, 0] S1024x1.size inb_S1024x1_S1024x1_0_0
abbrev r0_2 : Rect S2000x64 := Rect.unit (s := S2000x64) ![0, 0] S2000x64.size inb_S2000x64_S2000x64_0_0
abbrev r0_3 : Rect S1024x64 := Rect.unit (s := S1024x64) ![0, 0] S1024x64.size inb_S1024x64_S1024x64_0_0

/-! ## What the body leaves in the output window's buffer -/

/-- The output block after the body: its one store, of the product of the row-scaled feature block with the weights. -/
def out0_3 (x0 : Vec F S1024x2000 .f32) (x1 : Vec F S1024x1 .f32) (x2 : Vec F S2000x64 .f32) : Vec F S1024x64 .f32 :=
  View.canon [⟨r0_3, k0_pay1 (View.ld x0 r0_0) (View.ld x1 r0_1) (View.ld x2 r0_2)⟩]

/-- The one store covers the buffer. -/
theorem cover0_3 (p0 : Vec F S1024x64 .f32) (y : S1024x64.Idx) :
    ∃ pc ∈ ([⟨r0_3, p0⟩] : List (View.Piece (Elt F) S1024x64 .f32)), y ∈ pc.1.set :=
  View.cover_of_tiled [⟨r0_3, p0⟩] S1024x64.size (by rfl) y

/-! ## The body's triple -/

set_option maxHeartbeats 1000000 in
/-- On whole staging buffers, the inputs' at x0, x1, x2 and the output's at anything, the body runs to the end
    leaving the inputs as they were and the output at out0_3 x0 x1 x2. -/
theorem sound_kernel0 (c : Dev nD) (E : Set ℕ) (i : grid0.Coords) (arg1 : Memref sig .tc .vmem S1024x2000 .f32) (harg1 : arg1.IsWhole) (arg2 : Memref sig .tc .vmem S1024x1 .f32) (harg2 : arg2.IsWhole) (arg3 : Memref sig .tc .vmem S2000x64 .f32) (harg3 : arg3.IsWhole) (arg4 : Memref sig .tc .vmem S1024x64 .f32) (harg4 : arg4.IsWhole)
    (x0 : Vec F S1024x2000 .f32) (x1 : Vec F S1024x1 .f32) (x2 : Vec F S2000x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__scaled_matmul_kernel i arg1 harg1 arg2 harg2 arg3 harg3 arg4 harg4) K := by
  simp only [cc0__scaled_matmul_kernel_eq_skeleton]; unfold cc0__scaled_matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- Region 0's proof data on core c: the arrays as the region finds them; after the body at point t each input
    buffer still at its block and the output buffer at out0_3 of the three input blocks; the scoped rest and the
    generator register ride along untouched; nothing owed; every array held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the input buffers hold their blocks, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
/-
  The second projection, (x · s) W at the hidden width, as one pipelined region over twelve row blocks.
  A grid point t sees rows 1024 t … 1024 t + 1023 of the first layer's output x (a [1024, 64] block), the same rows of the
  column of scales s (a [1024, 1] block) and the whole weight matrix W ([64, 64], staged once), and stores ONE
  [1024, 64] block: the matrix product of the row-scaled block with W. Nothing is carried from one point to the next.
  This module says what each window's staging buffer holds around the body at a point, for ANY contents V of the
  core's buffers at the region's entry and at any float instance: the input blocks as the array's rows, the output
  block as the body's one store read back whole (out1_3); then the body's triple and the pipeline's body obligation.
-/
import proofs.«123820_j2207613190405_1_alg».proof.Proof.Gen.KernelIdeal.Launch
import proofs.«123820_j2207613190405_1_alg».proof.Proof.Gen.KernelIdeal.Skeleton
import proofs.«123820_j2207613190405_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window w's block at point t: the rows (and columns) of its array that the point's index map selects. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The features' staging buffer holds the point's row block when the body runs. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The scales' staging buffer holds the point's rows of the column. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The weights' staging buffer, filled at the first point only, still holds the whole matrix at every later one:
    its block index never moves. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer is read or written whole -/

abbrev r1_0 : Rect S1024x64 := Rect.unit (s := S1024x64) ![0, 0] S1024x64.size inb_S1024x64_S1024x64_0_0
abbrev r1_1 : Rect S1024x1 := Rect.unit (s := S1024x1) ![0, 0] S1024x1.size inb_S1024x1_S1024x1_0_0
abbrev r1_2 : Rect S64x64 := Rect.unit (s := S64x64) ![0, 0] S64x64.size inb_S64x64_S64x64_0_0
abbrev r1_3 : Rect S1024x64 := Rect.unit (s := S1024x64) ![0, 0] S1024x64.size inb_S1024x64_S1024x64_0_0

/-! ## What the body leaves in the output window's buffer -/

/-- The output block after the body: its one store, of the product of the row-scaled feature block with the weights. -/
def out1_3 (x0 : Vec F S1024x64 .f32) (x1 : Vec F S1024x1 .f32) (x2 : Vec F S64x64 .f32) : Vec F S1024x64 .f32 :=
  View.canon [⟨r1_3, k1_pay1 (View.ld x0 r1_0) (View.ld x1 r1_1) (View.ld x2 r1_2)⟩]

/-- The one store covers the buffer. -/
theorem cover1_3 (p0 : Vec F S1024x64 .f32) (y : S1024x64.Idx) :
    ∃ pc ∈ ([⟨r1_3, p0⟩] : List (View.Piece (Elt F) S1024x64 .f32)), y ∈ pc.1.set :=
  View.cover_of_tiled [⟨r1_3, p0⟩] S1024x64.size (by rfl) y

/-! ## The body's triple -/

set_option maxHeartbeats 1000000 in
/-- On whole staging buffers, the inputs' at x0, x1, x2 and the output's at anything, the body runs to the end
    leaving the inputs as they were and the output at out1_3 x0 x1 x2. -/
theorem sound_kernel1 (c : Dev nD) (E : Set ℕ) (i : grid1.Coords) (arg1 : Memref sig .tc .vmem S1024x64 .f32) (harg1 : arg1.IsWhole) (arg2 : Memref sig .tc .vmem S1024x1 .f32) (harg2 : arg2.IsWhole) (arg3 : Memref sig .tc .vmem S64x64 .f32) (harg3 : arg3.IsWhole) (arg4 : Memref sig .tc .vmem S1024x64 .f32) (harg4 : arg4.IsWhole)
    (x0 : Vec F S1024x64 .f32) (x1 : Vec F S1024x1 .f32) (x2 : Vec F S64x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__scaled_matmul_kernel i arg1 harg1 arg2 harg2 arg3 harg3 arg4 harg4) K := by
  simp only [cc1__scaled_matmul_kernel_eq_skeleton]; unfold cc1__scaled_matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- Region 1's proof data on core c: the arrays as the region finds them; after the body at point t each input
    buffer still at its block and the output buffer at out1_3 of the three input blocks; the scoped rest and the
    generator register ride along untouched; nothing owed; every array held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the input buffers hold their blocks, so the triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Region2.lean ====
/-
  The decode, x xᵀ, as one pipelined region over a 12 × 12 grid of [1024, 1024] output blocks.
  Grid point (a, b) sees rows 1024 a … of x through one window and rows 1024 b … of THE SAME array x through a
  second window (two [1024, 64] blocks), and stores ONE [1024, 1024] block: the products of the rows of the first block
  with the rows of the second, contracted over the 64 columns. Nothing is carried from one point to the next.
  Both input windows read one array, so the array is held at two half shares, one per window (dat2's q); the output's
  array is held whole. As for the projections: the blocks, the one store read back whole (out2_2), the body's triple
  and the pipeline's body obligation, for any contents V at the region's entry and any float instance.
-/
import proofs.«123820_j2207613190405_1_alg».proof.Proof.Gen.KernelIdeal.Launch
import proofs.«123820_j2207613190405_1_alg».proof.Proof.Gen.KernelIdeal.Skeleton
import proofs.«123820_j2207613190405_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window w's block at point t: the rows (and columns) of its array that the point's index map selects. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left factor's staging buffer, refilled only when the grid's first coordinate moves, holds the point's row
    block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The right factor's staging buffer holds the point's row block. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer is read or written whole -/

abbrev r2_0 : Rect S1024x64 := Rect.unit (s := S1024x64) ![0, 0] S1024x64.size inb_S1024x64_S1024x64_0_0
abbrev r2_2 : Rect S1024x1024 := Rect.unit (s := S1024x1024) ![0, 0] S1024x1024.size inb_S1024x1024_S1024x1024_0_0

/-! ## What the body leaves in the output window's buffer -/

/-- The output block after the body: its one store, of the rows of the first block against the rows of the second. -/
def out2_2 (x0 : Vec F S1024x64 .f32) (x1 : Vec F S1024x64 .f32) : Vec F S1024x1024 .f32 :=
  View.canon [⟨r2_2, k2_pay1 (View.ld x0 r2_0) (View.ld x1 r2_0)⟩]

/-- The one store covers the buffer. -/
theorem cover2_2 (p0 : Vec F S1024x1024 .f32) (y : S1024x1024.Idx) :
    ∃ pc ∈ ([⟨r2_2, p0⟩] : List (View.Piece (Elt F) S1024x1024 .f32)), y ∈ pc.1.set :=
  View.cover_of_tiled [⟨r2_2, p0⟩] S1024x1024.size (by rfl) y

/-! ## The body's triple -/

set_option maxHeartbeats 1000000 in
/-- On whole staging buffers, the inputs' at x0, x1 and the output's at anything, the body runs to the end leaving
    the inputs as they were and the output at out2_2 x0 x1. -/
theorem sound_kernel2 (c : Dev nD) (E : Set ℕ) (i : grid2.Coords) (arg2 : Memref sig .tc .vmem S1024x64 .f32) (harg2 : arg2.IsWhole) (arg3 : Memref sig .tc .vmem S1024x64 .f32) (harg3 : arg3.IsWhole) (arg4 : Memref sig .tc .vmem S1024x1024 .f32) (harg4 : arg4.IsWhole)
    (x0 : Vec F S1024x64 .f32) (x1 : Vec F S1024x64 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out2_2 x0 x1)) -∗ K ⟨⟩))
      ⊢ wp frame (wpE (defs₀ (F := F)) Variants.none c none) E (cc2__decode_kernel i arg2 harg2 arg3 harg3 arg4 harg4) K := by
  simp only [cc2__decode_kernel_eq_skeleton]; unfold cc2__decode_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- Region 2's proof data on core c: the arrays as the region finds them; after the body at point t each input
    buffer still at its block and the output buffer at out2_2 of the two input blocks; the scoped rest and the
    generator register ride along untouched; nothing owed. The one array both input windows read is held at the left
    half share by window 0 and at the right half share by window 1. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q w := match w with
    | ⟨0, _⟩ => fullShare.left
    | ⟨1, _⟩ => fullShare.right
    | ⟨2, _⟩ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- The shares the arrays are held at: the two halves for the shared input, the whole for the output. -/
theorem share2_0 (c : Dev nD) : (dat2 V c).share 0 = fullShare.left := rfl
theorem share2_1 (c : Dev nD) : (dat2 V c).share 1 = fullShare.right := rfl
theorem share2_2 (c : Dev nD) : (dat2 V c).share 2 = fullShare := rfl

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the input buffers hold their blocks, so the triple applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Fold.lean ====
/-
  The contents of the core's buffers at each boundary of @main, folded from the launch memory m:
  after the five host stretches that compute the two degree norms (W5, the generated V5), after the first projection
  (W6: its output array at what its twelve write-backs leave, every other buffer as before), after the first
  gather / scatter stretch (W7), after the second projection (W8), after the second stretch (W9), after the decode (W10).
  The regions' proof data are taken at these entry contents (E0, E1, E2).
-/
import proofs.«123820_j2207613190405_1_alg».proof.Proof.KI.Region0
import proofs.«123820_j2207613190405_1_alg».proof.Proof.KI.Region1
import proofs.«123820_j2207613190405_1_alg».proof.Proof.KI.Region2
import proofs.«123820_j2207613190405_1_alg».proof.Proof.Gen.KernelIdeal.Regions
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- After the host stretches before the first region. -/
abbrev W5 : Dev nD → Valuation τ sig (Elt F) := fun c => Gen.V5 m c
/-- The same read at the core's own references: what region 0 is entered with. -/
abbrev E0 : (c : Dev nD) → (b : Ref sig .tc) → Buf (Elt F) ((c : Thread nD τ).loc b) := fun c b => W5 m c b
/-- After region 0: its arrays at what the pipeline leaves, every other buffer as entered. -/
def W6 (c : Dev nD) : Valuation τ sig (Elt F) :=
  Pipeline.withArrays spec0 c (W5 m c) fun w => (dat0 (E0 m) c).arrAt w cfg0.N
/-- After the first gather / scatter stretch. -/
abbrev W7 : Dev nD → Valuation τ sig (Elt F) := fun c => StableHlo.after hostOps1 (W6 m c)
abbrev E1 : (c : Dev nD) → (b : Ref sig .tc) → Buf (Elt F) ((c : Thread nD τ).loc b) := fun c b => W7 m c b
/-- After region 1. -/
def W8 (c : Dev nD) : Valuation τ sig (Elt F) :=
  Pipeline.withArrays spec1 c (W7 m c) fun w => (dat1 (E1 m) c).arrAt w cfg1.N
/-- After the second gather / scatter stretch. -/
abbrev W9 : Dev nD → Valuation τ sig (Elt F) := fun c => StableHlo.after hostOps2 (W8 m c)
abbrev E2 : (c : Dev nD) → (b : Ref sig .tc) → Buf (Elt F) ((c : Thread nD τ).loc b) := fun c b => W9 m c b
/-- After region 2: the decode's output array at what its 144 write-backs leave, every other buffer as entered
    (its two input windows read one array and write nothing). -/
def W10 (c : Dev nD) : Valuation τ sig (Elt F) :=
  Function.update (W9 m c) (Proc.devRef .tc main_v53) ((dat2 (E2 m) c).arrAt 2 cfg2.N)

theorem W6_arr (c : Dev nD) (w : Fin cfg0.W) :
    W6 m c (Proc.devRef .tc (Pipeline.arrRef spec0 w)) = (dat0 (E0 m) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m c (Proc.devRef .tc b) = W5 m c (Proc.devRef .tc b) := by
  unfold W6; exact Pipeline.withArrays_of_ne spec0 c _ _ b hb
theorem W8_arr (c : Dev nD) (w : Fin cfg1.W) :
    W8 m c (Proc.devRef .tc (Pipeline.arrRef spec1 w)) = (dat1 (E1 m) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m c (Proc.devRef .tc b) = W7 m c (Proc.devRef .tc b) := by
  unfold W8; exact Pipeline.withArrays_of_ne spec1 c _ _ b hb
theorem W10_out (c : Dev nD) : W10 m c (Proc.devRef .tc main_v53) = (dat2 (E2 m) c).arrAt 2 cfg2.N := by
  unfold W10; exact Function.update_self ..
theorem W10_of_ne (c : Dev nD) (b : Ref sig .tc) (hb : b ≠ main_v53) :
    W10 m c (Proc.devRef .tc b) = W9 m c (Proc.devRef .tc b) := by
  unfold W10; exact Function.update_of_ne (StableHlo.devRef_ne_of_ne hb) ..

end Cert.KernelIdeal.Hand

end
-- ==== Proof.KI.Run.lean ====
/-
  The run of @main: five host stretches, the first projection, a gather / scatter stretch, the second projection, a
  second stretch, the decode. Each kernel region is entered from "every unscoped buffer of the core at the contents the
  item before left" and left at the same with the region's output array rewritten; what rides along is the core's
  generator register and that it owes nothing. Every weakly fair execution terminates, and at the end every unscoped
  buffer holds what the fold W10 says: the arguments as launched, the results at the regions' and stretches' values.
  The decode reads ONE array through two windows: at its entry the array's full share is split into the two halves its
  windows hold, and at its exit the halves, both still at the entry contents, are joined again.
-/
import proofs.«123820_j2207613190405_1_alg».proof.Proof.KI.Fold
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions' exit contents read at the core's own references -/

abbrev O0 : (c : Dev nD) → (b : Ref sig .tc) → Buf (Elt F) ((c : Thread nD τ).loc b) := fun c b => W6 m c b
abbrev O1 : (c : Dev nD) → (b : Ref sig .tc) → Buf (Elt F) ((c : Thread nD τ).loc b) := fun c b => W8 m c b
abbrev O2 : (c : Dev nD) → (b : Ref sig .tc) → Buf (Elt F) ((c : Thread nD τ).loc b) := fun c b => W10 m c b

theorem hF0 (c : Dev nD) (w : Fin cfg0.W) : (dat0 (E0 m) c).arrAt w cfg0.N = O0 m c (Pipeline.arrRef spec0 w) :=
  (W6_arr m c w).symm
theorem hrest0 (c : Dev nD) : ∀ b, b ∉ Finset.univ.image (Pipeline.arrRef spec0) → O0 m c b = E0 m c b :=
  fun b hb => W6_of_ne m c b fun w e => hb (Finset.mem_image.mpr ⟨w, Finset.mem_univ _, e⟩)
theorem hF1 (c : Dev nD) (w : Fin cfg1.W) : (dat1 (E1 m) c).arrAt w cfg1.N = O1 m c (Pipeline.arrRef spec1 w) :=
  (W8_arr m c w).symm
theorem hrest1 (c : Dev nD) : ∀ b, b ∉ Finset.univ.image (Pipeline.arrRef spec1) → O1 m c b = E1 m c b :=
  fun b hb => W8_of_ne m c b fun w e => hb (Finset.mem_image.mpr ⟨w, Finset.mem_univ _, e⟩)

/-! ## The proof data family and the thread state -/

/-- Every region's proof data, each at its region's entry contents. -/
def pdats : (p : Fin 3) → (c : Dev nD) → Dat τ (Elt F) Unit ℕ (UR sig nD τ) ℕ (Pipeline.pin (pcfgs (F := F)) Gen.adm p) c
  | ⟨0, _⟩ => fun c => dat0 (E0 m) c
  | ⟨1, _⟩ => fun c => dat1 (E1 m) c
  | ⟨2, _⟩ => fun c => dat2 (E2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without what the core owes: every unscoped buffer at W10, the generator register. -/
abbrev Tₙ (c : Dev nD) : sProp 𝕄 := iprop(StableHlo.held (c : Thread nD τ) (Pipeline.ucRefs τ sig) (W10 m c) ∗ ∃ r, prngReg c r)

/-! ## The decode's arrays among the core's unscoped buffers -/

/-- The two distinct buffers behind the decode's three windows. -/
theorem arrBufs2_eq (c : Dev nD) (V : (b : Ref sig .tc) → Buf (Elt F) ((c : Thread nD τ).loc b)) :
    (Pipeline.arrBufs (Ix := Unit) (Name := ℕ) (U := UR sig nD τ) (Lvl := ℕ) spec2 c V : sProp 𝕄)
      = iprop((((c : Thread nD τ).loc main_v52) ↦{fullShare} V main_v52) ∗ (((c : Thread nD τ).loc main_v53) ↦{fullShare} V main_v53)) := by
  unfold Pipeline.arrBufs
  rw [show Finset.univ.image (Pipeline.arrRef spec2) = insert main_v52 {main_v53} from by decide,
    bigSep_insert (by decide), BI.bigSep_singleton]
  rfl

/-- The decode's arrays as its proof data hold them: the shared input at the two half shares, the output whole. -/
theorem arrays2_eq (Vf : (c : Dev nD) → (b : Ref sig .tc) → Buf (Elt F) ((c : Thread nD τ).loc b)) (c : Dev nD)
    (G : (w : Fin cfg2.W) → Buf (Elt F) ((cfg2.win w).arr.view.loc (c : Thread nD τ))) :
    ((dat2 Vf c).arrays G : sProp 𝕄)
      = iprop((((c : Thread nD τ).loc main_v52) ↦{fullShare.left} G 0) ∗ (((c : Thread nD τ).loc main_v52) ↦{fullShare.right} G 1)
          ∗ (((c : Thread nD τ).loc main_v53) ↦{fullShare} G 2)) := by
  unfold Dat.arrays
  rw [bigSep_W2, (arr_whole2 0).set_eq_univ, (arr_whole2 2).set_eq_univ, share2_0, share2_1, share2_2]

/-- ENTRY: the core's unscoped buffers at V are the decode's arrays at their entry contents — the shared input's full
    share split into its two halves — and the rest. -/
theorem arrays2_of_unscopedBufs (Vf : (c : Dev nD) → (b : Ref sig .tc) → Buf (Elt F) ((c : Thread nD τ).loc b)) (c : Dev nD) :
    (unscopedBufs (Ix := Unit) (Name := ℕ) (U := UR sig nD τ) (Lvl := ℕ) c (Vf c) : sProp 𝕄)
      ⊢ iprop((dat2 Vf c).arrays ((dat2 Vf c).arrAt · 0) ∗ Pipeline.unscopedRest spec2 c (Vf c)) := by
  rw [Pipeline.unscopedBufs_split₀ cfgs 2 winFacts₀2.arr_unscoped c (Vf c)]
  show iprop(Pipeline.arrBufs spec2 c (Vf c) ∗ Pipeline.unscopedRest spec2 c (Vf c)) ⊢ _
  rw [arrBufs2_eq, arrays2_eq]
  iintro ⟨⟨H52, H53⟩, Hrest⟩
  isplitr [Hrest]
  swap; · iexact Hrest
  ihave Hh := (pointsTo_share (PosShare.mem_left_op_right fullShare)).1 $$ H52
  icases Hh with ⟨Hl, Hr⟩
  isplitl [Hl]; · iexact Hl
  isplitl [Hr]; · iexact Hr
  iexact H53

/-- EXIT: the decode's arrays at their final contents — the shared input's two halves, both still at the entry
    contents, joined — and the rest are the core's unscoped buffers at any valuation that has the output array at what
    the write-backs leave and agrees with the entry contents elsewhere. -/
theorem unscopedBufs_of_arrays2 (Vf : (c : Dev nD) → (b : Ref sig .tc) → Buf (Elt F) ((c : Thread nD τ).loc b)) (c : Dev nD)
    (V' : (b : Ref sig .tc) → Buf (Elt F) ((c : Thread nD τ).loc b))
    (hout : V' main_v53 = (dat2 Vf c).arrAt 2 cfg2.N) (hrest : ∀ b, b ≠ main_v53 → V' b = Vf c b) :
    iprop((dat2 Vf c).arrays ((dat2 Vf c).arrAt · cfg2.N) ∗ Pipeline.unscopedRest spec2 c (Vf c))
      ⊢ (unscopedBufs (Ix := Unit) (Name := ℕ) (U := UR sig nD τ) (Lvl := ℕ) c V' : sProp 𝕄) := by
  rw [Pipeline.unscopedBufs_split₀ cfgs 2 winFacts₀2.arr_unscoped c V']
  show _ ⊢ iprop(Pipeline.arrBufs spec2 c V' ∗ Pipeline.unscopedRest spec2 c V')
  rw [arrBufs2_eq, arrays2_eq,
    show (dat2 Vf c).arrAt 0 cfg2.N = Vf c main_v52 from ((dat2 Vf c).arrAt_in 0 rfl _).trans (A_eq2 Vf c 0),
    show (dat2 Vf c).arrAt 1 cfg2.N = Vf c main_v52 from ((dat2 Vf c).arrAt_in 1 rfl _).trans (A_eq2 Vf c 1),
    hout, hrest main_v52 (by decide),
    show (Pipeline.unscopedRest (Ix := Unit) (Name := ℕ) (U := UR sig nD τ) (Lvl := ℕ) spec2 c V' : sProp 𝕄) = Pipeline.unscopedRest spec2 c (Vf c) from by
      unfold Pipeline.unscopedRest
      exact bigSep_congr fun b hb => by
        rw [hrest b fun e => (Finset.mem_sdiff.mp hb).2 (Finset.mem_image.mpr ⟨2, Finset.mem_univ _, e.symm⟩)]]
  iintro ⟨⟨Hl, Hr, H53⟩, Hrest⟩
  isplitr [Hrest]
  swap; · iexact Hrest
  isplitr [H53]
  swap; · iexact H53
  iapply (pointsTo_share (PosShare.mem_left_op_right fullShare)).2
  isplitl [Hl]; · iexact Hl
  iexact Hr

/-! ## The regions as segments -/

set_option backward.isDefEq.respectTransparency.types false in
/-- The first projection: entered from every unscoped buffer at W5, left at W6. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E0 m c) (O0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second projection: entered from every unscoped buffer at W7, left at W8. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (E1 m c) (O1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The decode: entered from every unscoped buffer at W9, left at W10; its two input windows share one array. -/
def reg2 : Pipeline.RegionSeg (pcfgs (F := F)) Gen.adm (pdats m) () defs₀ 𝒱₀ L lv 2 where
  win := winFacts₀2
  block_pos := block_pos2
  stage_whole := stage_whole2
  K := PEmpty
  osem k := k.elim
  ho := Pipeline.OwnSemFacts.none _
  hbody c := (body_obligation2 (E2 m) c).loose
  hwaits := Pipeline.hwaits_of_owed_zero _ _ _ _ L lv 2 fun _ _ => rfl
  pre c := iprop(StableHlo.held (c : Thread nD τ) (Pipeline.ucRefs τ sig) (W9 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit : (unscopedBufs (Ix := Unit) (Name := ℕ) (U := UR sig nD τ) (Lvl := ℕ) c (E2 m c) : sProp 𝕄)
        ⊢ iprop((pdats m 2 c).arrays ((pdats m 2 c).arrAt · 0) ∗ Pipeline.unscopedRest spec2 c (E2 m c)) := arrays2_of_unscopedBufs (E2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m 2 c).arrays ((pdats m 2 c).arrAt · cfg2.N) ∗ Pipeline.unscopedRest spec2 c (E2 m c))
        ⊢ (unscopedBufs (Ix := Unit) (Name := ℕ) (U := UR sig nD τ) (Lvl := ℕ) c (O2 m c) : sProp 𝕄) :=
      unscopedBufs_of_arrays2 (E2 m) c (O2 m c) (W10_out m c) (fun b hb => W10_of_ne m c b hb)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's ten items in order. -/
abbrev segs : List (Pipeline.Seg (pcfgs (F := F)) Gen.adm (pdats m) () defs₀ 𝒱₀ L lv) :=
  [ .host (hseg hostOps0 hostOps0_sub Gen.hostOps0_fresh (Gen.V0 m)),
    .host (hseg hostOps0_1 hostOps0_1_sub Gen.hostOps0_1_fresh (Gen.V1 m)),
    .host (hseg hostOps0_2 hostOps0_2_sub Gen.hostOps0_2_fresh (Gen.V2 m)),
    .host (hseg hostOps0_3 hostOps0_3_sub Gen.hostOps0_3_fresh (Gen.V3 m)),
    .host (hseg hostOps0_4 hostOps0_4_sub Gen.hostOps0_4_fresh (Gen.V4 m)),
    .region (reg0 m),
    .host (hseg hostOps1 hostOps1_sub Gen.hostOps1_fresh (W6 m)),
    .region (reg1 m),
    .host (hseg hostOps2 hostOps2_sub Gen.hostOps2_fresh (W8 m)),
    .region (reg2 m) ]

set_option backward.isDefEq.respectTransparency.types false in
/-- THE RUN: from any memory with zero counters every weakly fair execution of @main terminates, nothing faulting, and
    every final memory holds each unscoped buffer of each core at the fold W10. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W10 m c b) :=
  Pipeline.θ_run_regions_kit (pcfgs (F := F)) Gen.adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c => h c)

/-- An unscoped reference of the core is among those the run reads. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.KI.Kept.lean ====
/-
  What the fold of buffer contents leaves alone: a reference that no host stretch writes and that is no region's
  output array holds at every boundary of @main what it held at launch. In particular each of the eight argument
  arrays ends as launched, and the two degree norms computed before the first region reach every later item unchanged.
-/
import proofs.«123820_j2207613190405_1_alg».proof.Proof.KI.Fold

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- A reference none of the five host stretches before the first region writes holds its launch contents there. -/
theorem keep5 (c : Dev nD) (r : Ref sig .tc) (h0 : r ∉ Gen.hostOps0_W) (h1 : r ∉ Gen.hostOps0_1_W) (h2 : r ∉ Gen.hostOps0_2_W)
    (h3 : r ∉ Gen.hostOps0_3_W) (h4 : r ∉ Gen.hostOps0_4_W) : W5 m c r = m ((c : Thread nD τ).loc r) :=
  (Gen.V5_of m c r h4).trans <| (Gen.V4_of m c r h3).trans <| (Gen.V3_of m c r h2).trans <| (Gen.V2_of m c r h1).trans <| (Gen.V1_of m c r h0).trans rfl

/-- The first region changes its output array only. -/
theorem keep6 (c : Dev nD) (r : Ref sig .tc) (h : r ≠ main_v14) (hin : r = main_arg0 ∨ r = main_v13 ∨ r = main_arg2 ∨ ∀ w, Pipeline.arrRef spec0 w ≠ r) :
    W6 m c r = W5 m c r := by
  rcases hin with rfl | rfl | rfl | hne
  · exact (W6_arr m c 0).trans (((dat0 (E0 m) c).arrAt_in 0 rfl _).trans (A_eq0 (E0 m) c 0))
  · exact (W6_arr m c 1).trans (((dat0 (E0 m) c).arrAt_in 1 rfl _).trans (A_eq0 (E0 m) c 1))
  · exact (W6_arr m c 2).trans (((dat0 (E0 m) c).arrAt_in 2 rfl _).trans (A_eq0 (E0 m) c 2))
  · exact W6_of_ne m c r hne

/-- The first gather / scatter stretch leaves what it does not write. -/
theorem keep7 (c : Dev nD) (r : Ref sig .tc) (h : r ∉ Gen.hostOps1_W) : W7 m c r = W6 m c r :=
  StableHlo.after_of_writes_sub hostOps1 _ Gen.hostOps1_writes h

/-- The second region changes its output array only. -/
theorem keep8 (c : Dev nD) (r : Ref sig .tc) (h : r ≠ main_v34) (hin : r = main_v32 ∨ r = main_v33 ∨ r = main_arg4 ∨ ∀ w, Pipeline.arrRef spec1 w ≠ r) :
    W8 m c r = W7 m c r := by
  rcases hin with rfl | rfl | rfl | hne
  · exact (W8_arr m c 0).trans (((dat1 (E1 m) c).arrAt_in 0 rfl _).trans (A_eq1 (E1 m) c 0))
  · exact (W8_arr m c 1).trans (((dat1 (E1 m) c).arrAt_in 1 rfl _).trans (A_eq1 (E1 m) c 1))
  · exact (W8_arr m c 2).trans (((dat1 (E1 m) c).arrAt_in 2 rfl _).trans (A_eq1 (E1 m) c 2))
  · exact W8_of_ne m c r hne

/-- The second gather / scatter stretch leaves what it does not write. -/
theorem keep9 (c : Dev nD) (r : Ref sig .tc) (h : r ∉ Gen.hostOps2_W) : W9 m c r = W8 m c r :=
  StableHlo.after_of_writes_sub hostOps2 _ Gen.hostOps2_writes h

/-- The decode changes its output array only. -/
theorem keep10 (c : Dev nD) (r : Ref sig .tc) (h : r ≠ main_v53) : W10 m c r = W9 m c r := W10_of_ne m c r h

/-- An argument array, written by nothing, read by the regions through input windows at most: as launched at the end. -/
theorem kept_arg (c : Dev nD) (r : Ref sig .tc)
    (h0 : r ∉ Gen.hostOps0_W) (h1 : r ∉ Gen.hostOps0_1_W) (h2 : r ∉ Gen.hostOps0_2_W) (h3 : r ∉ Gen.hostOps0_3_W) (h4 : r ∉ Gen.hostOps0_4_W)
    (h6 : r ≠ main_v14) (h6' : r = main_arg0 ∨ r = main_v13 ∨ r = main_arg2 ∨ ∀ w, Pipeline.arrRef spec0 w ≠ r)
    (h7 : r ∉ Gen.hostOps1_W)
    (h8 : r ≠ main_v34) (h8' : r = main_v32 ∨ r = main_v33 ∨ r = main_arg4 ∨ ∀ w, Pipeline.arrRef spec1 w ≠ r)
    (h9 : r ∉ Gen.hostOps2_W) (h10 : r ≠ main_v53) : W10 m c r = m ((c : Thread nD τ).loc r) :=
  (keep10 m c r h10).trans <| (keep9 m c r h9).trans <| (keep8 m c r h8 h8').trans <| (keep7 m c r h7).trans <|
    (keep6 m c r h6 h6').trans (keep5 m c r h0 h1 h2 h3 h4)

theorem W10_main_arg0 (c : Dev nD) : W10 m c main_arg0 = m ((c : Thread nD τ).loc main_arg0) :=
  kept_arg m c main_arg0 (by decide) (by decide) (by decide) (by decide) (by decide) (by decide) (.inl rfl) (by decide) (by decide) (.inr (.inr (.inr (by decide)))) (by decide) (by decide)
theorem W10_main_arg1 (c : Dev nD) : W10 m c main_arg1 = m ((c : Thread nD τ).loc main_arg1) :=
  kept_arg m c main_arg1 (by decide) (by decide) (by decide) (by decide) (by decide) (by decide) (.inr (.inr (.inr (by decide)))) (by decide) (by decide) (.inr (.inr (.inr (by decide)))) (by decide) (by decide)
theorem W10_main_arg2 (c : Dev nD) : W10 m c main_arg2 = m ((c : Thread nD τ).loc main_arg2) :=
  kept_arg m c main_arg2 (by decide) (by decide) (by decide) (by decide) (by decide) (by decide) (.inr (.inr (.inl rfl))) (by decide) (by decide) (.inr (.inr (.inr (by decide)))) (by decide) (by decide)
theorem W10_main_arg3 (c : Dev nD) : W10 m c main_arg3 = m ((c : Thread nD τ).loc main_arg3) :=
  kept_arg m c main_arg3 (by decide) (by decide) (by decide) (by decide) (by decide) (by decide) (.inr (.inr (.inr (by decide)))) (by decide) (by decide) (.inr (.inr (.inr (by decide)))) (by decide) (by decide)
theorem W10_main_arg4 (c : Dev nD) : W10 m c main_arg4 = m ((c : Thread nD τ).loc main_arg4) :=
  kept_arg m c main_arg4 (by decide) (by decide) (by decide) (by decide) (by decide) (by decide) (.inr (.inr (.inr (by decide)))) (by decide) (by decide) (.inr (.inr (.inl rfl))) (by decide) (by decide)
theorem W10_main_arg5 (c : Dev nD) : W10 m c main_arg5 = m ((c : Thread nD τ).loc main_arg5) :=
  kept_arg m c main_arg5 (by decide) (by decide) (by decide) (by decide) (by decide) (by decide) (.inr (.inr (.inr (by decide)))) (by decide) (by decide) (.inr (.inr (.inr (by decide)))) (by decide) (by decide)
theorem W10_main_arg6 (c : Dev nD) : W10 m c main_arg6 = m ((c : Thread nD τ).loc main_arg6) :=
  kept_arg m c main_arg6 (by decide) (by decide) (by decide) (by decide) (by decide) (by decide) (.inr (.inr (.inr (by decide)))) (by decide) (by decide) (.inr (.inr (.inr (by decide)))) (by decide) (by decide)
theorem W10_main_arg7 (c : Dev nD) : W10 m c main_arg7 = m ((c : Thread nD τ).loc main_arg7) :=
  kept_arg m c main_arg7 (by decide) (by decide) (by decide) (by decide) (by decide) (by decide) (.inr (.inr (.inr (by decide)))) (by decide) (by decide) (.inr (.inr (.inr (by decide)))) (by decide) (by decide)

end Cert.KernelIdeal.Hand

end
-- ==== Proof.KI.Frame.lean ====
/-
  The frame: every weakly fair execution of @main terminates, nothing faulting, and the eight argument arrays end
  holding what they held at launch. It is the run read at the arguments: each is an unscoped buffer that no host stretch
  writes and that the regions at most read.
-/
import proofs.«123820_j2207613190405_1_alg».proof.Proof.KI.Run
import proofs.«123820_j2207613190405_1_alg».proof.Proof.KI.Kept

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_arg0 (by decide))).trans (W10_main_arg0 m c),
     (h c _ (mem_uc main_arg1 (by decide))).trans (W10_main_arg1 m c),
     (h c _ (mem_uc main_arg2 (by decide))).trans (W10_main_arg2 m c),
     (h c _ (mem_uc main_arg3 (by decide))).trans (W10_main_arg3 m c),
     (h c _ (mem_uc main_arg4 (by decide))).trans (W10_main_arg4 m c),
     (h c _ (mem_uc main_arg5 (by decide))).trans (W10_main_arg5 m c),
     (h c _ (mem_uc main_arg6 (by decide))).trans (W10_main_arg6 m c),
     (h c _ (mem_uc main_arg7 (by decide))).trans (W10_main_arg7 m c)⟩) (run_all m ρ)

end Cert.KernelIdeal.Hand

end
-- ==== Proof.KI.Spec.lean ====
/-
  The mathematics of the three kernel regions, at the ideal instance (floats are extended reals, operations exact),
  as whole-array functions over literal shapes:
    proj0 x s W  — the first projection: entry (i, j) is ∑ₖ (x[i,k] · s[i,0]) · W[k,j], k over the 2000 features;
    proj1 x s W  — the second projection: the same over the 64 hidden columns;
    gram x       — the decode x xᵀ: entry (i, j) is ∑ₖ x[i,k] · x[j,k], k over the 64 hidden columns.
  Sums over the extended reals are finite sums in a commutative monoid: their order and grouping are immaterial, which
  is all that a blocked evaluation and a whole-array evaluation differ in.
-/
import proofs.«123820_j2207613190405_1_alg».proof.KernelIdeal
import Idealize.ShloMosaic.PureOps.Ideal
import Idealize.ShloMosaic.Lib.ValueIdx

noncomputable section

namespace Cert.KernelIdeal.Hand

open Idealize.ShloMosaic Idealize.ShloMosaic.ValueIdx Cert.KernelIdeal

/-- The row and the column of an index of a two-axis array, as numbers below the literal extents. -/
abbrev row {n0 n1 : Nat} (j : (⟨2, ![n0, n1]⟩ : Shape).Idx) : Fin n0 := ⟨(j 0).val, (j 0).isLt⟩
abbrev col {n0 n1 : Nat} (j : (⟨2, ![n0, n1]⟩ : Shape).Idx) : Fin n1 := ⟨(j 1).val, (j 1).isLt⟩

/-- The first projection of the row-scaled features. -/
def proj0 (x : FVec Ideal S12288x2000 .f32) (s : FVec Ideal S12288x1 .f32) (w : FVec Ideal S2000x64 .f32) : FVec Ideal S12288x64 .f32 :=
  fun j => ∑ k : Fin 2000, (x (ix2 (row j) k) * s (ix2 (row j) (0 : Fin 1))) * w (ix2 k (col j))

/-- The second projection, of the row-scaled hidden features. -/
def proj1 (x : FVec Ideal S12288x64 .f32) (s : FVec Ideal S12288x1 .f32) (w : FVec Ideal S64x64 .f32) : FVec Ideal S12288x64 .f32 :=
  fun j => ∑ k : Fin 64, (x (ix2 (row j) k) * s (ix2 (row j) (0 : Fin 1))) * w (ix2 k (col j))

/-- The decode: every row against every row. -/
def gram (x : FVec Ideal S12288x64 .f32) : FVec Ideal S12288x12288 .f32 :=
  fun j => ∑ k : Fin 64, x (ix2 (row j) k) * x (ix2 (col j) k)

end Cert.KernelIdeal.Hand

end
-- ==== Proof.KI.Val0.lean ====
/-
  The first projection's output array after its region, at the ideal instance (floats are extended reals, every
  operation exact): it holds proj0 of the features, the scales and the weights as the region finds them.
  Three steps. (1) The body's one stored value at entry (p, q) of its block is ∑ₖ (x[p,k] · s[p,0]) · W[k,q] over the
  2000 features: a matrix product into a zero accumulator is the plain sum over its one summation axis, the narrowing
  format changes are the identity, and the scales' column is laid along every column of the feature block.
  (2) At point t the feature block and the scale block are rows 1024 t … 1024 t + 1023 of their arrays and the weight
  block is the whole matrix, so what point t writes back is rows 1024 t … 1024 t + 1023 of proj0 of the arrays: the
  same sum, term by term. (3) Every point writes its block back and row r lies in the block of point r / 1024, so the
  twelve blocks tile the array, which therefore ends holding proj0 at every index.
-/
import proofs.«123820_j2207613190405_1_alg».proof.Proof.KI.Region0
import proofs.«123820_j2207613190405_1_alg».proof.Proof.KI.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The body's accesses sit at the origin of their buffers. -/
theorem origin0 : (![0, 0] : Fin 2 → Nat) = fun _ => 0 := funext fun a => by fin_cases a <;> rfl

/-! ## The body's product at an entry -/

/-- A column laid along every column of a wider block reads, at (p, k), the column's entry of row p. -/
theorem column_spread0 {α : Type} {a b : ℕ} (v : (⟨2, ![a, 1]⟩ : Shape).Idx → α)
    (h : (⟨2, ![a, 1]⟩ : Shape).Broadcasts ⟨2, ![a, b]⟩) (p : Fin a) (k : Fin b) :
    broadcastTo ⟨2, ![a, b]⟩ v h (ix2 p k) = v (ix2 p (0 : Fin 1)) := by
  refine broadcastTo_apply v h (ix2 p k) (ix2 p (0 : Fin 1)) fun ax => ?_
  match ax with
  | ⟨0, _⟩ =>
    show p.val = if a = 1 then 0 else p.val
    split
    · have := p.isLt; omega
    · rfl
  | ⟨1, _⟩ => rfl

/-- The product's left operand is read at the output's row … -/
theorem dot0_lhs_0 (i : S1024x64.Idx) (q : dot_S1024x2000_S2000x64_S1024x64_1_0_0_1_n_n.contr.Idx) :
    (dot_S1024x2000_S2000x64_S1024x64_1_0_0_1_n_n.lhsIdx i q 0).val = (i 0).val := by
  unfold DotDims.lhsIdx
  rw [dif_neg (show ¬(0 : Fin S1024x2000.rank) ∈ dot_S1024x2000_S2000x64_S1024x64_1_0_0_1_n_n.lhsBatch by decide), dif_pos (show (0 : Fin S1024x2000.rank) ∈ dot_S1024x2000_S2000x64_S1024x64_1_0_0_1_n_n.lhsNonContracting by decide)]
  rfl
/-- … and at the summation index along its columns; -/
theorem dot0_lhs_1 (i : S1024x64.Idx) (q : dot_S1024x2000_S2000x64_S1024x64_1_0_0_1_n_n.contr.Idx) :
    (dot_S1024x2000_S2000x64_S1024x64_1_0_0_1_n_n.lhsIdx i q 1).val = (q ⟨0, by decide⟩).val :=
  dot_S1024x2000_S2000x64_S1024x64_1_0_0_1_n_n.lhsIdx_val_of_single rfl i q
/-- the right operand at the summation index along its rows … -/
theorem dot0_rhs_0 (i : S1024x64.Idx) (q : dot_S1024x2000_S2000x64_S1024x64_1_0_0_1_n_n.contr.Idx) :
    (dot_S1024x2000_S2000x64_S1024x64_1_0_0_1_n_n.rhsIdx i q 0).val = (q ⟨0, by decide⟩).val :=
  dot_S1024x2000_S2000x64_S1024x64_1_0_0_1_n_n.rhsIdx_val_of_single rfl i q
/-- … and at the output's column. -/
theorem dot0_rhs_1 (i : S1024x64.Idx) (q : dot_S1024x2000_S2000x64_S1024x64_1_0_0_1_n_n.contr.Idx) :
    (dot_S1024x2000_S2000x64_S1024x64_1_0_0_1_n_n.rhsIdx i q 1).val = (i 1).val := by
  unfold DotDims.rhsIdx
  rw [dif_neg (show ¬(1 : Fin S2000x64.rank) ∈ dot_S1024x2000_S2000x64_S1024x64_1_0_0_1_n_n.rhsBatch by decide), dif_pos (show (1 : Fin S2000x64.rank) ∈ dot_S1024x2000_S2000x64_S1024x64_1_0_0_1_n_n.rhsNonContracting by decide)]
  rfl

/-- The body's value at entry (p, q) of its block: the sum over the 2000 features k of (x[p,k] · s[p,0]) · W[k,q].
    The format changes are the identity on extended reals, the accumulator is zero, and the product's one summation
    axis is re-indexed by its coordinate. -/
theorem pay0_apply (x : Vec Ideal S1024x2000 .f32) (s : Vec Ideal S1024x1 .f32) (w : Vec Ideal S2000x64 .f32) (j : S1024x64.Idx) :
    k0_pay1 x s w j = ∑ k : Fin 2000, (x (ix2 (row j) k) * s (ix2 (row j) (0 : Fin 1))) * w (ix2 k (col j)) := by
  unfold k0_pay1
  simp only [matmul]
  rw [Ideal.matmul_constant_zero_apply, ← Equiv.sum_comp (contrEquiv1 dot_S1024x2000_S2000x64_S1024x64_1_0_0_1_n_n 2000 rfl rfl).symm]
  refine Finset.sum_congr rfl fun k _ => ?_
  have hk := contrEquiv1_symm_val dot_S1024x2000_S2000x64_S1024x64_1_0_0_1_n_n 2000 rfl rfl k
  have el : dot_S1024x2000_S2000x64_S1024x64_1_0_0_1_n_n.lhsIdx j ((contrEquiv1 dot_S1024x2000_S2000x64_S1024x64_1_0_0_1_n_n 2000 rfl rfl).symm k) = ix2 (row j) k := funext fun a => Fin.ext (by
    match a with
    | ⟨0, _⟩ => exact dot0_lhs_0 _ _
    | ⟨1, _⟩ => exact (dot0_lhs_1 _ _).trans hk)
  have er : dot_S1024x2000_S2000x64_S1024x64_1_0_0_1_n_n.rhsIdx j ((contrEquiv1 dot_S1024x2000_S2000x64_S1024x64_1_0_0_1_n_n 2000 rfl rfl).symm k) = ix2 k (col j) := funext fun a => Fin.ext (by
    match a with
    | ⟨0, _⟩ => exact (dot0_rhs_0 _ _).trans hk
    | ⟨1, _⟩ => exact dot0_rhs_1 _ _)
  rw [el, er, truncf_apply, truncf_apply, mulf_apply, shapeCast_self, column_spread0]

/-! ## The blocks as rows of the arrays -/

/-- The index maps, decided over the twelve points: the features', the scales' and the output's row block is the
    point's number and their column block is 0; the weights' block never moves. -/
theorem block_index0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The features' block at point t is rows 1024 t … 1024 t + 1023 of the features. -/
theorem iblk0_0_apply (c : Dev nD) (t : Fin cfg0.N) (y : S1024x2000.Idx) (i : S12288x2000.Idx)
    (h0 : (i 0).val = 1024 * t.val + (y 0).val) (h1 : (i 1).val = (y 1).val) :
    (iblk0 V c 0 t : Vec Ideal S1024x2000 .f32) y = (V c main_arg0 : S12288x2000.Idx → Elt Ideal .f32) i := by
  obtain ⟨e0, e1, -⟩ := block_index0 t
  unfold iblk0
  rw [View.read_apply]
  show V c main_arg0 _ = V c main_arg0 _
  congr 1
  funext a
  apply Fin.ext
  match a with
  | ⟨0, _⟩ => show win0_0.index t (0 : Fin 2) * 1024 + 1 * (y 0).val = (i 0).val; rw [e0, h0]; omega
  | ⟨1, _⟩ => show win0_0.index t (1 : Fin 2) * 2000 + 1 * (y 1).val = (i 1).val; rw [e1, h1]; omega

/-- The scales' block at point t is the same rows of the column of scales. -/
theorem iblk0_1_apply (c : Dev nD) (t : Fin cfg0.N) (y : S1024x1.Idx) (i : S12288x1.Idx)
    (h0 : (i 0).val = 1024 * t.val + (y 0).val) (h1 : (i 1).val = (y 1).val) :
    (iblk0 V c 1 t : Vec Ideal S1024x1 .f32) y = (V c main_v13 : S12288x1.Idx → Elt Ideal .f32) i := by
  obtain ⟨-, -, e0, e1, -⟩ := block_index0 t
  unfold iblk0
  rw [View.read_apply]
  show V c main_v13 _ = V c main_v13 _
  congr 1
  funext a
  apply Fin.ext
  match a with
  | ⟨0, _⟩ => show win0_1.index t (0 : Fin 2) * 1024 + 1 * (y 0).val = (i 0).val; rw [e0, h0]; omega
  | ⟨1, _⟩ => show win0_1.index t (1 : Fin 2) * 1 + 1 * (y 1).val = (i 1).val; rw [e1, h1]; omega

/-- The weights' block at every point is the whole weight matrix. -/
theorem iblk0_2_apply (c : Dev nD) (t : Fin cfg0.N) (y : S2000x64.Idx) :
    (iblk0 V c 2 t : Vec Ideal S2000x64 .f32) y = (V c main_arg2 : S2000x64.Idx → Elt Ideal .f32) y := by
  obtain ⟨-, -, -, -, e0, e1, -⟩ := block_index0 t
  unfold iblk0
  rw [View.read_apply]
  show V c main_arg2 _ = V c main_arg2 _
  congr 1
  funext a
  apply Fin.ext
  match a with
  | ⟨0, _⟩ => show win0_2.index t (0 : Fin 2) * 2000 + 1 * (y 0).val = (y 0).val; rw [e0]; omega
  | ⟨1, _⟩ => show win0_2.index t (1 : Fin 2) * 64 + 1 * (y 1).val = (y 1).val; rw [e1]; omega

/-- Entry (p, q) of what point t stores is entry (1024 t + p, q) of the whole projection: the same sum, term by term. -/
theorem block0_entry (c : Dev nD) (t : Fin cfg0.N) (j : S1024x64.Idx) (i : S12288x64.Idx)
    (h0 : (i 0).val = 1024 * t.val + (j 0).val) (h1 : (i 1).val = (j 1).val) :
    k0_pay1 (iblk0 V c 0 t) (iblk0 V c 1 t) (iblk0 V c 2 t) j
      = proj0 (V c main_arg0) (V c main_v13) (V c main_arg2) i := by
  rw [pay0_apply]
  unfold proj0
  refine Finset.sum_congr rfl fun k _ => ?_
  rw [iblk0_0_apply V c t (ix2 (row j) k) (ix2 (row i) k) h0 rfl,
    iblk0_1_apply V c t (ix2 (row j) (0 : Fin 1)) (ix2 (row i) (0 : Fin 1)) h0 rfl,
    iblk0_2_apply V c t (ix2 k (col j))]
  have hc : col j = col i := Fin.ext h1.symm
  rw [hc]

/-! ## From the blocks to the array -/

/-- What point t writes back is block t of the whole projection of the arrays as the region finds them. -/
theorem flushed0_eq (c : Dev nD) (t : Fin cfg0.N) :
    (dat0 (F := Ideal) V c).flushed 3 t
      = ((cfg0.win 3).blk t).view.read (Elt Ideal) (proj0 (V c main_arg0) (V c main_v13) (V c main_arg2)) := by
  show (cfg0.win 3).cut (grid0.coords t) ((dat0 V c).after 3 t) = _
  rw [after0_3]
  unfold out0_3
  rw [View.canon_unit_zero origin0]
  simp only [View.ld_unit_zero (S := S1024x2000) origin0, View.ld_unit_zero (S := S1024x1) origin0, View.ld_unit_zero (S := S2000x64) origin0]
  obtain ⟨-, -, -, -, -, -, e0, e1⟩ := block_index0 t
  funext j
  rw [View.read_apply]
  refine block0_entry V c t _ _ ?_ ?_
  · show win0_3.index t (0 : Fin 2) * 1024 + 1 * (j 0).val = 1024 * t.val + (j 0).val; rw [e0]; omega
  · show win0_3.index t (1 : Fin 2) * 64 + 1 * (j 1).val = (j 1).val; rw [e1]; omega

/-- An index of the output array is in point t's block iff each coordinate is in the block's range on its axis. -/
theorem mem_blk0 (t : Fin cfg0.N) (i : S12288x64.Idx) :
    i ∈ ((cfg0.win 3).blk t).view.set ↔ ∀ a : Fin 2, win0_3.index t a * S1024x64.size a ≤ (i a).val ∧ (i a).val < win0_3.index t a * S1024x64.size a + S1024x64.size a := by
  show i ∈ ((View.whole main_v14).slice (win0_3.rect t)).set ↔ _
  rw [View.set_slice_whole, Rect.mem_set_unit]
  exact Iff.rfl

/-- Row r of the output lies in the block of point r / 1024, and every point writes its block back: the twelve
    blocks tile the array. -/
theorem tiles0 (i : S12288x64.Idx) :
    ∃ t : Fin cfg0.N, (cfg0.win 3).flush t = true ∧ i ∈ ((cfg0.win 3).blk t).view.set := by
  have hi0 : (i 0).val < 12288 := (i 0).isLt
  have hi1 : (i 1).val < 64 := (i 1).isLt
  have hN : cfg0.N = 12 := N_0
  let t : Fin cfg0.N := ⟨(i 0).val / 1024, by rw [hN]; omega⟩
  obtain ⟨-, -, -, -, -, -, e0, e1⟩ := block_index0 t
  have ht : t.val = (i 0).val / 1024 := rfl
  refine ⟨t, flush0_3 t, ?_⟩
  rw [mem_blk0]
  intro a
  match a with
  | ⟨0, _⟩ => show win0_3.index t (0 : Fin 2) * 1024 ≤ (i 0).val ∧ (i 0).val < win0_3.index t (0 : Fin 2) * 1024 + 1024; rw [e0, ht]; omega
  | ⟨1, _⟩ => show win0_3.index t (1 : Fin 2) * 64 ≤ (i 1).val ∧ (i 1).val < win0_3.index t (1 : Fin 2) * 64 + 64; rw [e1]; omega

/-- After its twelve write-backs the first projection's output array holds proj0 of the region's entry contents. -/
theorem final0 (c : Dev nD) :
    (dat0 (F := Ideal) V c).arrAt 3 cfg0.N = proj0 (V c main_arg0) (V c main_v13) (V c main_arg2) :=
  (dat0 (F := Ideal) V c).arrAt_eq_of_cover 3 (proj0 (V c main_arg0) (V c main_v13) (V c main_arg2))
    (fun t _ => flushed0_eq V c t) tiles0

end Cert.KernelIdeal.Hand

end
-- ==== Proof.KI.Val1.lean ====
/-
  The second projection's output array after its region, at the ideal instance (floats are extended reals, every
  operation exact): it holds proj1 of the hidden features, the scales and the weights as the region finds them.
  Three steps. (1) The body's one stored value at entry (p, q) of its block is ∑ₖ (x[p,k] · s[p,0]) · W[k,q] over the
  64 hidden columns: a matrix product into a zero accumulator is the plain sum over its one summation axis, the
  narrowing format changes and the casts between equal shapes are the identity, and the scales' column is laid along
  every column of the feature block. (2) At point t the feature block and the scale block are rows 1024 t …
  1024 t + 1023 of their arrays and the weight block is the whole matrix, so what point t writes back is rows
  1024 t … 1024 t + 1023 of proj1 of the arrays: the same sum, term by term. (3) Every point writes its block back and
  row r lies in the block of point r / 1024, so the twelve blocks tile the array, which therefore ends holding proj1 at
  every index.
-/
import proofs.«123820_j2207613190405_1_alg».proof.Proof.KI.Region1
import proofs.«123820_j2207613190405_1_alg».proof.Proof.KI.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The body's accesses sit at the origin of their buffers. -/
theorem origin1 : (![0, 0] : Fin 2 → Nat) = fun _ => 0 := funext fun a => by fin_cases a <;> rfl

/-! ## The body's product at an entry -/

/-- A column laid along every column of a wider block reads, at (p, k), the column's entry of row p. -/
theorem column_spread1 {α : Type} {a b : ℕ} (v : (⟨2, ![a, 1]⟩ : Shape).Idx → α)
    (h : (⟨2, ![a, 1]⟩ : Shape).Broadcasts ⟨2, ![a, b]⟩) (p : Fin a) (k : Fin b) :
    broadcastTo ⟨2, ![a, b]⟩ v h (ix2 p k) = v (ix2 p (0 : Fin 1)) := by
  refine broadcastTo_apply v h (ix2 p k) (ix2 p (0 : Fin 1)) fun ax => ?_
  match ax with
  | ⟨0, _⟩ =>
    show p.val = if a = 1 then 0 else p.val
    split
    · have := p.isLt; omega
    · rfl
  | ⟨1, _⟩ => rfl

/-- The product's left operand is read at the output's row … -/
theorem dot1_lhs_0 (i : S1024x64.Idx) (q : dot_S1024x64_S64x64_S1024x64_1_0_0_1_n_n.contr.Idx) :
    (dot_S1024x64_S64x64_S1024x64_1_0_0_1_n_n.lhsIdx i q 0).val = (i 0).val := by
  unfold DotDims.lhsIdx
  rw [dif_neg (show ¬(0 : Fin S1024x64.rank) ∈ dot_S1024x64_S64x64_S1024x64_1_0_0_1_n_n.lhsBatch by decide), dif_pos (show (0 : Fin S1024x64.rank) ∈ dot_S1024x64_S64x64_S1024x64_1_0_0_1_n_n.lhsNonContracting by decide)]
  rfl
/-- … and at the summation index along its columns; -/
theorem dot1_lhs_1 (i : S1024x64.Idx) (q : dot_S1024x64_S64x64_S1024x64_1_0_0_1_n_n.contr.Idx) :
    (dot_S1024x64_S64x64_S1024x64_1_0_0_1_n_n.lhsIdx i q 1).val = (q ⟨0, by decide⟩).val :=
  dot_S1024x64_S64x64_S1024x64_1_0_0_1_n_n.lhsIdx_val_of_single rfl i q
/-- the right operand at the summation index along its rows … -/
theorem dot1_rhs_0 (i : S1024x64.Idx) (q : dot_S1024x64_S64x64_S1024x64_1_0_0_1_n_n.contr.Idx) :
    (dot_S1024x64_S64x64_S1024x64_1_0_0_1_n_n.rhsIdx i q 0).val = (q ⟨0, by decide⟩).val :=
  dot_S1024x64_S64x64_S1024x64_1_0_0_1_n_n.rhsIdx_val_of_single rfl i q
/-- … and at the output's column. -/
theorem dot1_rhs_1 (i : S1024x64.Idx) (q : dot_S1024x64_S64x64_S1024x64_1_0_0_1_n_n.contr.Idx) :
    (dot_S1024x64_S64x64_S1024x64_1_0_0_1_n_n.rhsIdx i q 1).val = (i 1).val := by
  unfold DotDims.rhsIdx
  rw [dif_neg (show ¬(1 : Fin S64x64.rank) ∈ dot_S1024x64_S64x64_S1024x64_1_0_0_1_n_n.rhsBatch by decide), dif_pos (show (1 : Fin S64x64.rank) ∈ dot_S1024x64_S64x64_S1024x64_1_0_0_1_n_n.rhsNonContracting by decide)]
  rfl

/-- The body's value at entry (p, q) of its block: the sum over the 64 hidden columns k of (x[p,k] · s[p,0]) · W[k,q].
    The format changes and the casts between equal shapes are the identity on extended reals, the accumulator is
    zero, and the product's one summation axis is re-indexed by its coordinate. -/
theorem pay1_apply (x : Vec Ideal S1024x64 .f32) (s : Vec Ideal S1024x1 .f32) (w : Vec Ideal S64x64 .f32) (j : S1024x64.Idx) :
    k1_pay1 x s w j = ∑ k : Fin 64, (x (ix2 (row j) k) * s (ix2 (row j) (0 : Fin 1))) * w (ix2 k (col j)) := by
  unfold k1_pay1
  simp only [matmul]
  rw [Ideal.matmul_constant_zero_apply, ← Equiv.sum_comp (contrEquiv1 dot_S1024x64_S64x64_S1024x64_1_0_0_1_n_n 64 rfl rfl).symm]
  refine Finset.sum_congr rfl fun k _ => ?_
  have hk := contrEquiv1_symm_val dot_S1024x64_S64x64_S1024x64_1_0_0_1_n_n 64 rfl rfl k
  have el : dot_S1024x64_S64x64_S1024x64_1_0_0_1_n_n.lhsIdx j ((contrEquiv1 dot_S1024x64_S64x64_S1024x64_1_0_0_1_n_n 64 rfl rfl).symm k) = ix2 (row j) k := funext fun a => Fin.ext (by
    match a with
    | ⟨0, _⟩ => exact dot1_lhs_0 _ _
    | ⟨1, _⟩ => exact (dot1_lhs_1 _ _).trans hk)
  have er : dot_S1024x64_S64x64_S1024x64_1_0_0_1_n_n.rhsIdx j ((contrEquiv1 dot_S1024x64_S64x64_S1024x64_1_0_0_1_n_n 64 rfl rfl).symm k) = ix2 k (col j) := funext fun a => Fin.ext (by
    match a with
    | ⟨0, _⟩ => exact (dot1_rhs_0 _ _).trans hk
    | ⟨1, _⟩ => exact dot1_rhs_1 _ _)
  rw [el, er, truncf_apply, truncf_apply, mulf_apply, shapeCast_self, shapeCast_self, column_spread1]

/-! ## The blocks as rows of the arrays -/

/-- The index maps, decided over the twelve points: the features', the scales' and the output's row block is the
    point's number and their column block is 0; the weights' block never moves. -/
theorem block_index1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The features' block at point t is rows 1024 t … 1024 t + 1023 of the hidden features. -/
theorem iblk1_0_apply (c : Dev nD) (t : Fin cfg1.N) (y : S1024x64.Idx) (i : S12288x64.Idx)
    (h0 : (i 0).val = 1024 * t.val + (y 0).val) (h1 : (i 1).val = (y 1).val) :
    (iblk1 V c 0 t : Vec Ideal S1024x64 .f32) y = (V c main_v32 : S12288x64.Idx → Elt Ideal .f32) i := by
  obtain ⟨e0, e1, -⟩ := block_index1 t
  unfold iblk1
  rw [View.read_apply]
  show V c main_v32 _ = V c main_v32 _
  congr 1
  funext a
  apply Fin.ext
  match a with
  | ⟨0, _⟩ => show win1_0.index t (0 : Fin 2) * 1024 + 1 * (y 0).val = (i 0).val; rw [e0, h0]; omega
  | ⟨1, _⟩ => show win1_0.index t (1 : Fin 2) * 64 + 1 * (y 1).val = (i 1).val; rw [e1, h1]; omega

/-- The scales' block at point t is the same rows of the column of scales. -/
theorem iblk1_1_apply (c : Dev nD) (t : Fin cfg1.N) (y : S1024x1.Idx) (i : S12288x1.Idx)
    (h0 : (i 0).val = 1024 * t.val + (y 0).val) (h1 : (i 1).val = (y 1).val) :
    (iblk1 V c 1 t : Vec Ideal S1024x1 .f32) y = (V c main_v33 : S12288x1.Idx → Elt Ideal .f32) i := by
  obtain ⟨-, -, e0, e1, -⟩ := block_index1 t
  unfold iblk1
  rw [View.read_apply]
  show V c main_v33 _ = V c main_v33 _
  congr 1
  funext a
  apply Fin.ext
  match a with
  | ⟨0, _⟩ => show win1_1.index t (0 : Fin 2) * 1024 + 1 * (y 0).val = (i 0).val; rw [e0, h0]; omega
  | ⟨1, _⟩ => show win1_1.index t (1 : Fin 2) * 1 + 1 * (y 1).val = (i 1).val; rw [e1, h1]; omega

/-- The weights' block at every point is the whole weight matrix. -/
theorem iblk1_2_apply (c : Dev nD) (t : Fin cfg1.N) (y : S64x64.Idx) :
    (iblk1 V c 2 t : Vec Ideal S64x64 .f32) y = (V c main_arg4 : S64x64.Idx → Elt Ideal .f32) y := by
  obtain ⟨-, -, -, -, e0, e1, -⟩ := block_index1 t
  unfold iblk1
  rw [View.read_apply]
  show V c main_arg4 _ = V c main_arg4 _
  congr 1
  funext a
  apply Fin.ext
  match a with
  | ⟨0, _⟩ => show win1_2.index t (0 : Fin 2) * 64 + 1 * (y 0).val = (y 0).val; rw [e0]; omega
  | ⟨1, _⟩ => show win1_2.index t (1 : Fin 2) * 64 + 1 * (y 1).val = (y 1).val; rw [e1]; omega

/-- Entry (p, q) of what point t stores is entry (1024 t + p, q) of the whole projection: the same sum, term by term. -/
theorem block1_entry (c : Dev nD) (t : Fin cfg1.N) (j : S1024x64.Idx) (i : S12288x64.Idx)
    (h0 : (i 0).val = 1024 * t.val + (j 0).val) (h1 : (i 1).val = (j 1).val) :
    k1_pay1 (iblk1 V c 0 t) (iblk1 V c 1 t) (iblk1 V c 2 t) j
      = proj1 (V c main_v32) (V c main_v33) (V c main_arg4) i := by
  rw [pay1_apply]
  unfold proj1
  refine Finset.sum_congr rfl fun k _ => ?_
  rw [iblk1_0_apply V c t (ix2 (row j) k) (ix2 (row i) k) h0 rfl,
    iblk1_1_apply V c t (ix2 (row j) (0 : Fin 1)) (ix2 (row i) (0 : Fin 1)) h0 rfl,
    iblk1_2_apply V c t (ix2 k (col j))]
  have hc : col j = col i := Fin.ext h1.symm
  rw [hc]

/-! ## From the blocks to the array -/

/-- What point t writes back is block t of the whole projection of the arrays as the region finds them. -/
theorem flushed1_eq (c : Dev nD) (t : Fin cfg1.N) :
    (dat1 (F := Ideal) V c).flushed 3 t
      = ((cfg1.win 3).blk t).view.read (Elt Ideal) (proj1 (V c main_v32) (V c main_v33) (V c main_arg4)) := by
  show (cfg1.win 3).cut (grid1.coords t) ((dat1 V c).after 3 t) = _
  rw [after1_3]
  unfold out1_3
  rw [View.canon_unit_zero origin1]
  simp only [View.ld_unit_zero (S := S1024x64) origin1, View.ld_unit_zero (S := S1024x1) origin1, View.ld_unit_zero (S := S64x64) origin1]
  obtain ⟨-, -, -, -, -, -, e0, e1⟩ := block_index1 t
  funext j
  rw [View.read_apply]
  refine block1_entry V c t _ _ ?_ ?_
  · show win1_3.index t (0 : Fin 2) * 1024 + 1 * (j 0).val = 1024 * t.val + (j 0).val; rw [e0]; omega
  · show win1_3.index t (1 : Fin 2) * 64 + 1 * (j 1).val = (j 1).val; rw [e1]; omega

/-- An index of the output array is in point t's block iff each coordinate is in the block's range on its axis. -/
theorem mem_blk1 (t : Fin cfg1.N) (i : S12288x64.Idx) :
    i ∈ ((cfg1.win 3).blk t).view.set ↔ ∀ a : Fin 2, win1_3.index t a * S1024x64.size a ≤ (i a).val ∧ (i a).val < win1_3.index t a * S1024x64.size a + S1024x64.size a := by
  show i ∈ ((View.whole main_v34).slice (win1_3.rect t)).set ↔ _
  rw [View.set_slice_whole, Rect.mem_set_unit]
  exact Iff.rfl

/-- Row r of the output lies in the block of point r / 1024, and every point writes its block back: the twelve
    blocks tile the array. -/
theorem tiles1 (i : S12288x64.Idx) :
    ∃ t : Fin cfg1.N, (cfg1.win 3).flush t = true ∧ i ∈ ((cfg1.win 3).blk t).view.set := by
  have hi0 : (i 0).val < 12288 := (i 0).isLt
  have hi1 : (i 1).val < 64 := (i 1).isLt
  have hN : cfg1.N = 12 := N_1
  let t : Fin cfg1.N := ⟨(i 0).val / 1024, by rw [hN]; omega⟩
  obtain ⟨-, -, -, -, -, -, e0, e1⟩ := block_index1 t
  have ht : t.val = (i 0).val / 1024 := rfl
  refine ⟨t, flush1_3 t, ?_⟩
  rw [mem_blk1]
  intro a
  match a with
  | ⟨0, _⟩ => show win1_3.index t (0 : Fin 2) * 1024 ≤ (i 0).val ∧ (i 0).val < win1_3.index t (0 : Fin 2) * 1024 + 1024; rw [e0, ht]; omega
  | ⟨1, _⟩ => show win1_3.index t (1 : Fin 2) * 64 ≤ (i 1).val ∧ (i 1).val < win1_3.index t (1 : Fin 2) * 64 + 64; rw [e1]; omega

/-- After its twelve write-backs the second projection's output array holds proj1 of the region's entry contents. -/
theorem final1 (c : Dev nD) :
    (dat1 (F := Ideal) V c).arrAt 3 cfg1.N = proj1 (V c main_v32) (V c main_v33) (V c main_arg4) :=
  (dat1 (F := Ideal) V c).arrAt_eq_of_cover 3 (proj1 (V c main_v32) (V c main_v33) (V c main_arg4))
    (fun t _ => flushed1_eq V c t) tiles1

end Cert.KernelIdeal.Hand

end
-- ==== Proof.KI.Val2.lean ====
/-
  The decode region's output array, after all of its write-backs, is the Gram matrix x xᵀ of the array x the region
  finds at its entry: entry (i, j) is ∑ₖ x[i,k] · x[j,k], k over the 64 columns.
  The grid is 12 × 12; point t has coordinates (t / 12, t % 12). At point t = (a, b) the first input block is rows
  1024 a … of x, the second input block is rows 1024 b … of the SAME array x, and the one stored block is rows
  1024 a …, columns 1024 b … of the [12288, 12288] output. The stored block is the product of the first block with the
  transpose of the second: both factors are contracted over their second axis, so its entry (p, q) is
  ∑ₖ (first block)[p,k] · (second block)[q,k] = ∑ₖ x[1024 a + p, k] · x[1024 b + q, k], which is the Gram matrix at
  (1024 a + p, 1024 b + q). So every point writes back the restriction of the Gram matrix to its square, and the
  144 squares tile the output (entry (i, j) lies in the square of the point (i / 1024) · 12 + j / 1024): the array
  ends holding the Gram matrix. At the ideal instance the roundings to the narrower float are the identity and the
  product into a zero accumulator is the plain finite sum.
-/
import proofs.«123820_j2207613190405_1_alg».proof.Proof.KI.Region2
import proofs.«123820_j2207613190405_1_alg».proof.Proof.KI.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## The block product at an entry -/

/-- The zero offset on both axes. -/
theorem hz2 : (![0, 0] : Fin 2 → Nat) = fun _ => 0 := funext fun a => by fin_cases a <;> rfl

/-- The left factor's index at output entry i and contraction index q: its row is i's row, -/
theorem lhs_dec_0 (i : S1024x1024.Idx) (q : dot_S1024x64_S1024x64_S1024x1024_1_1_0_0_n_n.contr.Idx) :
    (dot_S1024x64_S1024x64_S1024x1024_1_1_0_0_n_n.lhsIdx i q 0).val = (i 0).val := by
  unfold DotDims.lhsIdx
  rw [dif_neg (show ¬(0 : Fin S1024x64.rank) ∈ dot_S1024x64_S1024x64_S1024x1024_1_1_0_0_n_n.lhsBatch by decide), dif_pos (show (0 : Fin S1024x64.rank) ∈ dot_S1024x64_S1024x64_S1024x1024_1_1_0_0_n_n.lhsNonContracting by decide)]
  rfl
/-- and its column is the contraction index. -/
theorem lhs_dec_1 (i : S1024x1024.Idx) (q : dot_S1024x64_S1024x64_S1024x1024_1_1_0_0_n_n.contr.Idx) :
    (dot_S1024x64_S1024x64_S1024x1024_1_1_0_0_n_n.lhsIdx i q 1).val = (q ⟨0, by decide⟩).val :=
  dot_S1024x64_S1024x64_S1024x1024_1_1_0_0_n_n.lhsIdx_val_of_single rfl i q
/-- The right factor's index: its ROW is i's column (the right factor enters transposed), -/
theorem rhs_dec_0 (i : S1024x1024.Idx) (q : dot_S1024x64_S1024x64_S1024x1024_1_1_0_0_n_n.contr.Idx) :
    (dot_S1024x64_S1024x64_S1024x1024_1_1_0_0_n_n.rhsIdx i q 0).val = (i 1).val := by
  unfold DotDims.rhsIdx
  rw [dif_neg (show ¬(0 : Fin S1024x64.rank) ∈ dot_S1024x64_S1024x64_S1024x1024_1_1_0_0_n_n.rhsBatch by decide), dif_pos (show (0 : Fin S1024x64.rank) ∈ dot_S1024x64_S1024x64_S1024x1024_1_1_0_0_n_n.rhsNonContracting by decide)]
  rfl
/-- and its column is the contraction index. -/
theorem rhs_dec_1 (i : S1024x1024.Idx) (q : dot_S1024x64_S1024x64_S1024x1024_1_1_0_0_n_n.contr.Idx) :
    (dot_S1024x64_S1024x64_S1024x1024_1_1_0_0_n_n.rhsIdx i q 1).val = (q ⟨0, by decide⟩).val :=
  dot_S1024x64_S1024x64_S1024x1024_1_1_0_0_n_n.rhsIdx_val_of_single rfl i q

/-- The body's one product at entry j: the rows (row j) of the first block and (col j) of the second, multiplied column
    by column and summed over the 64 columns. The sum over the one-axis contraction index is the sum over Fin 64. -/
theorem pay2_apply (x0 x1 : Vec Ideal S1024x64 .f32) (j : S1024x1024.Idx) :
    k2_pay1 (F := Ideal) x0 x1 j = ∑ k : Fin 64, x0 (ix2 (row j) k) * x1 (ix2 (col j) k) := by
  unfold k2_pay1
  simp only [shapeCast_self, matmul]
  rw [Ideal.matmul_constant_zero_apply, ← Equiv.sum_comp (contrEquiv1 dot_S1024x64_S1024x64_S1024x1024_1_1_0_0_n_n 64 rfl rfl).symm]
  refine Finset.sum_congr rfl fun k _ => ?_
  have hk := contrEquiv1_symm_val dot_S1024x64_S1024x64_S1024x1024_1_1_0_0_n_n 64 rfl rfl k
  have el : dot_S1024x64_S1024x64_S1024x1024_1_1_0_0_n_n.lhsIdx j ((contrEquiv1 dot_S1024x64_S1024x64_S1024x1024_1_1_0_0_n_n 64 rfl rfl).symm k) = ix2 (row j) k := funext fun a => Fin.ext (by
    match a with
    | ⟨0, _⟩ => exact lhs_dec_0 _ _
    | ⟨1, _⟩ => exact (lhs_dec_1 _ _).trans hk)
  have er : dot_S1024x64_S1024x64_S1024x1024_1_1_0_0_n_n.rhsIdx j ((contrEquiv1 dot_S1024x64_S1024x64_S1024x1024_1_1_0_0_n_n 64 rfl rfl).symm k) = ix2 (col j) k := funext fun a => Fin.ext (by
    match a with
    | ⟨0, _⟩ => exact rhs_dec_0 _ _
    | ⟨1, _⟩ => exact (rhs_dec_1 _ _).trans hk)
  rw [el, er]
  rfl

/-! ## The blocks as rows of the arrays -/

/-- The three index maps at grid point t = (t / 12, t % 12): the first input block follows the first coordinate, the
    second input block the second coordinate, the output block both. -/
theorem idx_facts2 : ∀ t : Fin cfg2.N, win2_0.index t (0 : Fin 2) = t.val / 12
    ∧ win2_0.index t (1 : Fin 2) = 0
    ∧ win2_1.index t (0 : Fin 2) = t.val % 12
    ∧ win2_1.index t (1 : Fin 2) = 0
    ∧ win2_2.index t (0 : Fin 2) = t.val / 12
    ∧ win2_2.index t (1 : Fin 2) = t.val % 12 :=
  (by decide +kernel : ∀ t : Fin grid2.N, _)

/-- The first input block at point t is rows 1024 (t / 12) … of x. -/
theorem iblk2_0_apply (c : Dev nD) (t : Fin cfg2.N) (y : S1024x64.Idx) (i : S12288x64.Idx)
    (h0 : (i 0).val = 1024 * (t.val / 12) + (y 0).val) (h1 : (i 1).val = (y 1).val) :
    (iblk2 V c 0 t : Vec Ideal S1024x64 .f32) y = (V c main_v52 : S12288x64.Idx → Elt Ideal .f32) i := by
  obtain ⟨e0, e1, -, -, -, -⟩ := idx_facts2 t
  unfold iblk2
  rw [View.read_apply]
  show V c main_v52 _ = V c main_v52 _
  congr 1
  funext a
  apply Fin.ext
  match a with
  | ⟨0, _⟩ => show win2_0.index t 0 * 1024 + 1 * (y 0).val = (i 0).val; rw [e0, h0]; omega
  | ⟨1, _⟩ => show win2_0.index t 1 * 64 + 1 * (y 1).val = (i 1).val; rw [e1, h1]; omega

/-- The second input block at point t is rows 1024 (t % 12) … of the same array x. -/
theorem iblk2_1_apply (c : Dev nD) (t : Fin cfg2.N) (y : S1024x64.Idx) (i : S12288x64.Idx)
    (h0 : (i 0).val = 1024 * (t.val % 12) + (y 0).val) (h1 : (i 1).val = (y 1).val) :
    (iblk2 V c 1 t : Vec Ideal S1024x64 .f32) y = (V c main_v52 : S12288x64.Idx → Elt Ideal .f32) i := by
  obtain ⟨-, -, e2, e3, -, -⟩ := idx_facts2 t
  unfold iblk2
  rw [View.read_apply]
  show V c main_v52 _ = V c main_v52 _
  congr 1
  funext a
  apply Fin.ext
  match a with
  | ⟨0, _⟩ => show win2_1.index t 0 * 1024 + 1 * (y 0).val = (i 0).val; rw [e2, h0]; omega
  | ⟨1, _⟩ => show win2_1.index t 1 * 64 + 1 * (y 1).val = (i 1).val; rw [e3, h1]; omega

/-! ## What a point writes back, and the cover -/

/-- What point t writes back is the Gram matrix of x read through the point's square: entry (p, q) of the stored
    product is the sum over k of x[1024 (t / 12) + p, k] · x[1024 (t % 12) + q, k]. -/
theorem flushed2_eq (c : Dev nD) (t : Fin cfg2.N) :
    (dat2 (F := Ideal) V c).flushed 2 t = ((cfg2.win 2).blk t).view.read (Elt Ideal) (gram (V c main_v52)) := by
  show (cfg2.win 2).cut (grid2.coords t) ((dat2 (F := Ideal) V c).after 2 t) = _
  rw [after2_2]
  unfold out2_2
  rw [View.canon_unit_zero hz2]
  simp only [View.ld_unit_zero (S := S1024x64) hz2]
  obtain ⟨-, -, -, -, e4, e5⟩ := idx_facts2 t
  funext j
  show k2_pay1 (F := Ideal) (iblk2 V c 0 t) (iblk2 V c 1 t) j = gram (V c main_v52) (((cfg2.win 2).blk t).view.emb j)
  rw [pay2_apply]
  unfold gram
  refine Finset.sum_congr rfl fun k _ => ?_
  have hj0 : (j 0).val < 1024 := (j 0).isLt
  have hj1 : (j 1).val < 1024 := (j 1).isLt
  have r0 : ((((cfg2.win 2).blk t).view.emb j) 0).val = 1024 * (t.val / 12) + (j 0).val := by
    show win2_2.index t (0 : Fin 2) * 1024 + 1 * (j 0).val = _; rw [e4]; omega
  have r1 : ((((cfg2.win 2).blk t).view.emb j) 1).val = 1024 * (t.val % 12) + (j 1).val := by
    show win2_2.index t (1 : Fin 2) * 1024 + 1 * (j 1).val = _; rw [e5]; omega
  congr 1
  · exact iblk2_0_apply V c t _ _ r0 rfl
  · exact iblk2_1_apply V c t _ _ r1 rfl

/-- An entry of the output is in point t's square iff each coordinate is in the square's range on its axis. -/
theorem mem_blk2 (t : Fin cfg2.N) (i : S12288x12288.Idx) :
    i ∈ ((cfg2.win 2).blk t).view.set ↔ ∀ a : Fin 2, win2_2.index t a * S1024x1024.size a ≤ (i a).val ∧ (i a).val < win2_2.index t a * S1024x1024.size a + S1024x1024.size a := by
  show i ∈ ((View.whole main_v53).slice (win2_2.rect t)).set ↔ _
  rw [View.set_slice_whole, Rect.mem_set_unit]
  exact Iff.rfl

/-- The squares tile the output: entry (i, j) is in the square of the point (i / 1024) · 12 + j / 1024. -/
theorem covered2 (i : S12288x12288.Idx) :
    ∃ t : Fin cfg2.N, (cfg2.win 2).flush t = true ∧ i ∈ ((cfg2.win 2).blk t).view.set := by
  have hi0 : (i 0).val < 12288 := (i 0).isLt
  have hi1 : (i 1).val < 12288 := (i 1).isLt
  have hN : cfg2.N = 144 := N_2
  let t : Fin cfg2.N := ⟨(i 0).val / 1024 * 12 + (i 1).val / 1024, by rw [hN]; omega⟩
  obtain ⟨-, -, -, -, e4, e5⟩ := idx_facts2 t
  have ht : t.val = (i 0).val / 1024 * 12 + (i 1).val / 1024 := rfl
  refine ⟨t, flush2_2 t, ?_⟩
  rw [mem_blk2]
  intro a
  match a with
  | ⟨0, _⟩ => show win2_2.index t (0 : Fin 2) * 1024 ≤ (i 0).val ∧ (i 0).val < win2_2.index t (0 : Fin 2) * 1024 + 1024; rw [e4, ht]; omega
  | ⟨1, _⟩ => show win2_2.index t (1 : Fin 2) * 1024 ≤ (i 1).val ∧ (i 1).val < win2_2.index t (1 : Fin 2) * 1024 + 1024; rw [e5, ht]; omega

/-- After its 144 write-backs the decode's output array holds the Gram matrix of the region's entry contents of x. -/
theorem final2 (c : Dev nD) :
    (dat2 (F := Ideal) V c).arrAt 2 cfg2.N = gram (V c main_v52) :=
  (dat2 (F := Ideal) V c).arrAt_eq_of_cover 2 (gram (V c main_v52)) (fun t _ => flushed2_eq V c t) covered2

end Cert.KernelIdeal.Hand

end
-- ==== Proof.Bridge.lean ====
/-
  The reference's three contractions are the three whole-array functions of the specification, at the ideal instance
  (floats are extended reals, every operation exact).
    * The first contraction takes the features, scaled row by row by a vector that has first been spread along a unit
      axis and then along the 2000 feature columns, against the first weights. Entry (i, j) of the result is
      the sum over k of (x[i,k] * d[i]) * W[k,j]: the two spreadings read the vector at the row i whatever the column, so
      any column array s with s[i,0] = d[i] gives the same scaled features, and the sum is proj0 x s W.
    * The second contraction is the same over the 64 hidden columns: proj1 of the hidden features.
    * The third contraction takes an array against its own transpose. The transpose at (k, j) is the array at (j, k), so
      entry (i, j) is the sum over k of y[i,k] * y[j,k]: the Gram matrix of y.
  Nothing is reordered: each side is one finite sum over the same contracted axis, and the summands agree term by term
  once the composed index maps are read coordinate by coordinate.
-/
import proofs.«123820_j2207613190405_1_alg».proof.Proof.Gen.ReferenceIdeal.Read
import proofs.«123820_j2207613190405_1_alg».proof.Proof.KI.Spec
import Idealize.ShloMosaic.Lib.ValueIdx
import Idealize.ShloMosaic.PureOps.Ideal.Laws

noncomputable section

namespace Cert.Bridge

open Idealize.ShloMosaic Idealize.ShloMosaic.ValueIdx Cert.ReferenceIdeal Cert.ReferenceIdeal.Read Cert.KernelIdeal.Hand

/-- The first contraction is proj0 of the features, any column array that holds the scaling vector, and the weights:
    entry (i, j) is the sum over the 2000 features of (x[i,k] * s[i,0]) * W[k,j]. -/
theorem ref_proj0 (x0 : (⟨S12288x2000, .f32⟩ : BufTy).Contents (Elt Ideal)) (x2 : (⟨S2000x64, .f32⟩ : BufTy).Contents (Elt Ideal)) (x6 : (⟨S393216, .i32⟩ : BufTy).Contents (Elt Ideal))
    (s : FVec Ideal Cert.KernelIdeal.S12288x1 .f32) (hs : ∀ r : Fin 12288, s (ix2 r (0 : Fin 1)) = val_main_v10 (F := Ideal) x6 (ix1 r)) :
    val_main_v16 (F := Ideal) x0 x2 x6 = proj0 x0 s x2 := by
  funext i
  rw [val_main_v16_apply]
  show _ = ∑ k : Fin 2000, (x0 (ix2 (row i) k) * s (ix2 (row i) (0 : Fin 1))) * x2 (ix2 k (col i))
  refine Finset.sum_congr rfl fun k _ => ?_
  rw [val_main_v15_apply, val_main_v14_apply, val_main_v13_apply, Ideal.mulf_def]
  -- the two spreadings read the scaling vector at the row of the entry, whatever the contracted position
  have e3 : idx_main_v13 (idx_main_v14 (lidx_main_v16 i k)) = ix1 (row i) :=
    funext fun a => Fin.ext (by match a with | ⟨0, _⟩ => rfl)
  -- the left operand is read at (row, k), the right at (k, column)
  have e1 : lidx_main_v16 i k = ix2 (row i) k :=
    funext fun a => Fin.ext (by match a with | ⟨0, _⟩ => rfl | ⟨1, _⟩ => rfl)
  have e2 : ridx_main_v16 i k = ix2 k (col i) :=
    funext fun a => Fin.ext (by match a with | ⟨0, _⟩ => rfl | ⟨1, _⟩ => rfl)
  rw [e3, ← hs (row i), e1, e2]

/-- The second contraction is proj1 of the hidden features, the same column array, and the second weights:
    entry (i, j) is the sum over the 64 hidden columns of (h[i,k] * s[i,0]) * W[k,j]. -/
theorem ref_proj1 (x0 : (⟨S12288x2000, .f32⟩ : BufTy).Contents (Elt Ideal)) (x1 : (⟨S393216x1, .f32⟩ : BufTy).Contents (Elt Ideal)) (x2 : (⟨S2000x64, .f32⟩ : BufTy).Contents (Elt Ideal)) (x3 : (⟨S64, .f32⟩ : BufTy).Contents (Elt Ideal)) (x4 : (⟨S64x64, .f32⟩ : BufTy).Contents (Elt Ideal)) (x6 x7 : (⟨S393216, .i32⟩ : BufTy).Contents (Elt Ideal))
    (s : FVec Ideal Cert.KernelIdeal.S12288x1 .f32) (hs : ∀ r : Fin 12288, s (ix2 r (0 : Fin 1)) = val_main_v10 (F := Ideal) x6 (ix1 r)) :
    val_main_v38 (F := Ideal) x0 x1 x2 x3 x4 x6 x7 = proj1 (val_main_v34 (F := Ideal) x0 x1 x2 x3 x6 x7) s x4 := by
  funext i
  rw [val_main_v38_apply]
  show _ = ∑ k : Fin 64, (val_main_v34 (F := Ideal) x0 x1 x2 x3 x6 x7 (ix2 (row i) k) * s (ix2 (row i) (0 : Fin 1))) * x4 (ix2 k (col i))
  refine Finset.sum_congr rfl fun k _ => ?_
  rw [val_main_v37_apply, val_main_v36_apply, val_main_v35_apply, Ideal.mulf_def]
  have e3 : idx_main_v35 (idx_main_v36 (lidx_main_v38 i k)) = ix1 (row i) :=
    funext fun a => Fin.ext (by match a with | ⟨0, _⟩ => rfl)
  have e1 : lidx_main_v38 i k = ix2 (row i) k :=
    funext fun a => Fin.ext (by match a with | ⟨0, _⟩ => rfl | ⟨1, _⟩ => rfl)
  have e2 : ridx_main_v38 i k = ix2 k (col i) :=
    funext fun a => Fin.ext (by match a with | ⟨0, _⟩ => rfl | ⟨1, _⟩ => rfl)
  rw [e3, ← hs (row i), e1, e2]

/-- The third contraction is the Gram matrix of its operand: the transpose at (k, j) is the operand at (j, k), so
    entry (i, j) is the sum over the 64 hidden columns of y[i,k] * y[j,k]. -/
theorem ref_gram (x0 : (⟨S12288x2000, .f32⟩ : BufTy).Contents (Elt Ideal)) (x1 : (⟨S393216x1, .f32⟩ : BufTy).Contents (Elt Ideal)) (x2 : (⟨S2000x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 x7 : (⟨S393216, .i32⟩ : BufTy).Contents (Elt Ideal)) :
    val_main_v58 (F := Ideal) x0 x1 x2 x3 x4 x5 x6 x7 = gram (val_main_v56 (F := Ideal) x0 x1 x2 x3 x4 x5 x6 x7) := by
  funext i
  rw [val_main_v58_apply]
  show _ = ∑ k : Fin 64, val_main_v56 (F := Ideal) x0 x1 x2 x3 x4 x5 x6 x7 (ix2 (row i) k) * val_main_v56 (F := Ideal) x0 x1 x2 x3 x4 x5 x6 x7 (ix2 (col i) k)
  refine Finset.sum_congr rfl fun k _ => ?_
  rw [val_main_v57_apply]
  have e1 : lidx_main_v58 i k = ix2 (row i) k :=
    funext fun a => Fin.ext (by match a with | ⟨0, _⟩ => rfl | ⟨1, _⟩ => rfl)
  have e2 : idx_main_v57 (ridx_main_v58 i k) = ix2 (col i) k :=
    funext fun a => Fin.ext (by match a with | ⟨0, _⟩ => rfl | ⟨1, _⟩ => rfl)
  rw [e1, e2]

end Cert.Bridge

end
-- ==== Proof.Host.lean ====
/-
  The host stretches of the kernel's program compute the reference's stages. Between its three regions the kernel's
  program applies, operation for operation, what the reference applies between its three contractions: the two degree
  norms (a scatter-add of ones at the index arrays, clipped below at one, raised to the power minus one half), then
  after each projection the gather along the edges, the product with the edge weights, the scatter-add, the product
  with the in-degree norm spread along the columns and the sum with the bias spread along the rows. So once a region's
  output array is the reference's contraction, the array the next region reads is the reference's next stage: both are
  the same tree of operations over the same leaves (an argument array or a norm, which nothing in between rewrites).
  The out-degree norm reaches the regions as a column array: the reshape of a vector of length n to n rows of one
  column keeps the row-major order, so its entry (r, 0) is the vector's entry r.
-/
import proofs.«123820_j2207613190405_1_alg».proof.Proof.KI.Kept
import proofs.«123820_j2207613190405_1_alg».proof.Proof.Gen.ReferenceIdeal.Read
import Idealize.ShloMosaic.Lib.StableHlo.Run
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.ReferenceIdeal.Read (val_main_v10 val_main_v12 val_main_v16 val_main_v34 val_main_v38 val_main_v56)

variable (m : (ℓ : Loc nD τ sig) → Buf (Elt Ideal) ℓ)

/-! ## Contents carried to a reference's own buffer type and back

A typed reference carries contents along the equation between the value's type and its buffer's type. At a literal
reference that equation holds by computation, so the carried contents are the contents. -/

/-- Carried to the buffer's type and back: unchanged. -/
theorem ofBuf_toBuf {T : BufTy} (x : StableHlo.TRef sig T) (v : T.Contents (Elt Ideal)) : x.ofBuf (x.toBuf v) = v := by
  obtain ⟨r, h, h2, h3⟩ := x; subst h; rfl

theorem toBuf_v4 (v : (⟨S12288, .f32⟩ : BufTy).Contents (Elt Ideal)) :
    (StableHlo.TRef.of (sig := sig) (T := ⟨S12288, .f32⟩) main_v4).toBuf v = v := rfl
theorem ofBuf_v3 (v : (⟨S12288, .f32⟩ : BufTy).Contents (Elt Ideal)) :
    (StableHlo.TRef.of (sig := sig) (T := ⟨S12288, .f32⟩) main_v3).ofBuf v = v := rfl
theorem ofBuf_cst_1 (v : (⟨S_, .f32⟩ : BufTy).Contents (Elt Ideal)) :
    (StableHlo.TRef.of (sig := sig) (T := ⟨S_, .f32⟩) main_cst_1).ofBuf v = v := rfl
theorem toBuf_v8 (v : (⟨S12288, .f32⟩ : BufTy).Contents (Elt Ideal)) :
    (StableHlo.TRef.of (sig := sig) (T := ⟨S12288, .f32⟩) main_v8).toBuf v = v := rfl
theorem ofBuf_v7 (v : (⟨S12288, .f32⟩ : BufTy).Contents (Elt Ideal)) :
    (StableHlo.TRef.of (sig := sig) (T := ⟨S12288, .f32⟩) main_v7).ofBuf v = v := rfl
theorem ofBuf_cst_3 (v : (⟨S_, .f32⟩ : BufTy).Contents (Elt Ideal)) :
    (StableHlo.TRef.of (sig := sig) (T := ⟨S_, .f32⟩) main_cst_3).ofBuf v = v := rfl

/-! ## The two programs' operation records are the same literals -/

theorem scatter1_eq : Cert.KernelIdeal.scatter_S12288_S393216x1_S393216_n_0_0_1 = Cert.ReferenceIdeal.scatter_S12288_S393216x1_S393216_n_0_0_1 := rfl
theorem scatter2_eq : Cert.KernelIdeal.scatter_S12288x64_S393216x1_S393216x64_1_0_0_1 = Cert.ReferenceIdeal.scatter_S12288x64_S393216x1_S393216x64_1_0_0_1 := rfl
theorem gather_eq : Cert.KernelIdeal.gather_S12288x64_S393216x1_S393216x64_1_0_n_n_0_1_164 = Cert.ReferenceIdeal.gather_S12288x64_S393216x1_S393216x64_1_0_n_n_0_1_164 := rfl

/-! ## The two degree norms -/

open Cert.ReferenceIdeal.Read in
/-- The out-degree norm: ones scattered and added at the first index array, clipped below at one, raised to minus one half. -/
theorem host_v10 (c : Dev nD) : W5 m c main_v10 = val_main_v10 (F := Ideal) (m ((c : Thread nD τ).loc main_arg6)) := by
  show StableHlo.after hostOps0_4 (StableHlo.after hostOps0_3 (StableHlo.after hostOps0_2 (StableHlo.after hostOps0_1 (StableHlo.after hostOps0 (fun b => m (c, b)))))) (Proc.devRef .tc main_v10) = _
  after_results_simp
  simp only [ofBuf_toBuf, toBuf_v4, ofBuf_v3, ofBuf_cst_1, scatter1_eq]
  simp only [val_main_v10, val_main_v9, val_main_cst_4, val_main_v4, val_main_call0_v1, val_main_call0_v0, val_main_cst_1, val_main_v3,
    val_main_v2, val_main_v1, val_main_cst_0, val_main_v0, val_main_cst]

open Cert.ReferenceIdeal.Read in
/-- The in-degree norm: the same at the second index array. -/
theorem host_v12 (c : Dev nD) : W5 m c main_v12 = val_main_v12 (F := Ideal) (m ((c : Thread nD τ).loc main_arg7)) := by
  show StableHlo.after hostOps0_4 (StableHlo.after hostOps0_3 (StableHlo.after hostOps0_2 (StableHlo.after hostOps0_1 (StableHlo.after hostOps0 (fun b => m (c, b)))))) (Proc.devRef .tc main_v12) = _
  after_results_simp
  simp only [ofBuf_toBuf, toBuf_v8, ofBuf_v7, ofBuf_cst_3, scatter1_eq]
  simp only [val_main_v12, val_main_v11, val_main_cst_5, val_main_v8, val_main_call1_v1, val_main_call1_v0, val_main_cst_3, val_main_v7,
    val_main_v6, val_main_v5, val_main_cst_2, val_main_v0, val_main_cst]

/-! ## The out-degree norm as a column array

A vector of length n reshaped to n rows of one column keeps its row-major order: position r of the vector is
position r * 1 + 0 of the array, so the array's entry (r, 0) is the vector's entry r. -/

/-- The row-major position of (r, 0) among 12288 rows of one column is the position of r among 12288. -/
theorem pos_col (r : Fin 12288) :
    ((⟨1, ![12288]⟩ : Shape).rowMajor (ValueIdx.ix1 r)).val = ((⟨2, ![12288, 1]⟩ : Shape).rowMajor (ValueIdx.ix2 r (0 : Fin 1))).val := by
  rw [Shape.rowMajor_val_one, Shape.rowMajor_val_two]
  show r.val = r.val * 1 + 0
  omega

/-- The column array the first region reads holds the out-degree norm. -/
theorem host_v13 (c : Dev nD) (r : Fin 12288) :
    (W5 m c main_v13 : FVec Ideal S12288x1 .f32) (ValueIdx.ix2 r (0 : Fin 1)) = val_main_v10 (F := Ideal) (m ((c : Thread nD τ).loc main_arg6)) (ValueIdx.ix1 r) := by
  rw [← host_v10 m c]
  show StableHlo.after hostOps0_4 (Gen.V4 m c) (Proc.devRef .tc main_v13) (ValueIdx.ix2 r (0 : Fin 1)) = StableHlo.after hostOps0_4 (Gen.V4 m c) (Proc.devRef .tc main_v10) (ValueIdx.ix1 r)
  generalize Gen.V4 m c = V
  after_results_simp
  exact shapeCast_apply _ _ (ValueIdx.ix2 r (0 : Fin 1)) (ValueIdx.ix1 r) (pos_col r)

/-- The column array the second region reads holds the out-degree norm: nothing between rewrites the norm. -/
theorem host_v33 (c : Dev nD) (r : Fin 12288) :
    (W7 m c main_v33 : FVec Ideal S12288x1 .f32) (ValueIdx.ix2 r (0 : Fin 1)) = val_main_v10 (F := Ideal) (m ((c : Thread nD τ).loc main_arg6)) (ValueIdx.ix1 r) := by
  have h10 : W6 m c main_v10 = val_main_v10 (F := Ideal) (m ((c : Thread nD τ).loc main_arg6)) :=
    (keep6 m c main_v10 (by decide) (.inr (.inr (.inr (by decide))))).trans (host_v10 m c)
  rw [← h10]
  show StableHlo.after hostOps1 (W6 m c) (Proc.devRef .tc main_v33) (ValueIdx.ix2 r (0 : Fin 1)) = W6 m c (Proc.devRef .tc main_v10) (ValueIdx.ix1 r)
  generalize W6 m c = V
  after_results_simp
  exact shapeCast_apply _ _ (ValueIdx.ix2 r (0 : Fin 1)) (ValueIdx.ix1 r) (pos_col r)

/-! ## The two gather / scatter stretches -/

/-- An argument array that the first region does not write reaches the first stretch as launched. -/
theorem arg6 (c : Dev nD) (r : Ref sig .tc)
    (h0 : r ∉ Gen.hostOps0_W) (h1 : r ∉ Gen.hostOps0_1_W) (h2 : r ∉ Gen.hostOps0_2_W) (h3 : r ∉ Gen.hostOps0_3_W) (h4 : r ∉ Gen.hostOps0_4_W)
    (h6 : r ≠ main_v14) (h6' : r = main_arg0 ∨ r = main_v13 ∨ r = main_arg2 ∨ ∀ w, Pipeline.arrRef spec0 w ≠ r) :
    W6 m c r = m ((c : Thread nD τ).loc r) :=
  (keep6 m c r h6 h6').trans (keep5 m c r h0 h1 h2 h3 h4)

/-- The same through the first stretch and the second region, to the second stretch. -/
theorem arg8 (c : Dev nD) (r : Ref sig .tc)
    (h0 : r ∉ Gen.hostOps0_W) (h1 : r ∉ Gen.hostOps0_1_W) (h2 : r ∉ Gen.hostOps0_2_W) (h3 : r ∉ Gen.hostOps0_3_W) (h4 : r ∉ Gen.hostOps0_4_W)
    (h6 : r ≠ main_v14) (h6' : r = main_arg0 ∨ r = main_v13 ∨ r = main_arg2 ∨ ∀ w, Pipeline.arrRef spec0 w ≠ r)
    (h7 : r ∉ Gen.hostOps1_W)
    (h8 : r ≠ main_v34) (h8' : r = main_v32 ∨ r = main_v33 ∨ r = main_arg4 ∨ ∀ w, Pipeline.arrRef spec1 w ≠ r) :
    W8 m c r = m ((c : Thread nD τ).loc r) :=
  (keep8 m c r h8 h8').trans <| (keep7 m c r h7).trans <| arg6 m c r h0 h1 h2 h3 h4 h6 h6'

open Cert.ReferenceIdeal.Read in
/-- Once the first region's output is the reference's first contraction, what the second region reads is the reference's
    hidden stage: gather along the edges, times the edge weights, scattered and added, times the in-degree norm, plus the bias. -/
theorem host_v32 (c : Dev nD)
    (h14 : W6 m c main_v14 = val_main_v16 (F := Ideal) (m ((c : Thread nD τ).loc main_arg0)) (m ((c : Thread nD τ).loc main_arg2)) (m ((c : Thread nD τ).loc main_arg6))) :
    W7 m c main_v32 = val_main_v34 (F := Ideal) (m ((c : Thread nD τ).loc main_arg0)) (m ((c : Thread nD τ).loc main_arg1)) (m ((c : Thread nD τ).loc main_arg2))
      (m ((c : Thread nD τ).loc main_arg3)) (m ((c : Thread nD τ).loc main_arg6)) (m ((c : Thread nD τ).loc main_arg7)) := by
  have a1 : W6 m c main_arg1 = m ((c : Thread nD τ).loc main_arg1) :=
    arg6 m c main_arg1 (by decide) (by decide) (by decide) (by decide) (by decide) (by decide) (.inr (.inr (.inr (by decide))))
  have a3 : W6 m c main_arg3 = m ((c : Thread nD τ).loc main_arg3) :=
    arg6 m c main_arg3 (by decide) (by decide) (by decide) (by decide) (by decide) (by decide) (.inr (.inr (.inr (by decide))))
  have a6 : W6 m c main_arg6 = m ((c : Thread nD τ).loc main_arg6) :=
    arg6 m c main_arg6 (by decide) (by decide) (by decide) (by decide) (by decide) (by decide) (.inr (.inr (.inr (by decide))))
  have a7 : W6 m c main_arg7 = m ((c : Thread nD τ).loc main_arg7) :=
    arg6 m c main_arg7 (by decide) (by decide) (by decide) (by decide) (by decide) (by decide) (.inr (.inr (.inr (by decide))))
  have n12 : W6 m c main_v12 = val_main_v12 (F := Ideal) (m ((c : Thread nD τ).loc main_arg7)) :=
    (keep6 m c main_v12 (by decide) (.inr (.inr (.inr (by decide))))).trans (host_v12 m c)
  show StableHlo.after hostOps1 (W6 m c) (Proc.devRef .tc main_v32) = _
  after_results_simp
  simp only [h14, a1, a3, a6, a7, n12, scatter2_eq, gather_eq]

  simp only [val_main_v34, val_main_v33, val_main_v32, val_main_v31, val_main_v30, val_main_v29, val_main_v28, val_main_v27, val_main_v26,
    val_main_cst_7, val_main_v25, val_main_v24, val_main_v23, val_main_v22, val_main_v21, val_main_v20, val_main_v19, val_main_c_6,
    val_main_v18, val_main_v17, val_main_c]

open Cert.ReferenceIdeal.Read in
/-- Once the second region's output is the reference's second contraction, what the decode reads is the reference's
    embedding stage, by the same operations over the second bias. -/
theorem host_v52 (c : Dev nD)
    (h34 : W8 m c main_v34 = val_main_v38 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg6)) (m ((c : Thread nD τ).loc main_arg7))) :
    W9 m c main_v52 = val_main_v56 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) := by
  have a1 : W8 m c main_arg1 = m ((c : Thread nD τ).loc main_arg1) :=
    arg8 m c main_arg1 (by decide) (by decide) (by decide) (by decide) (by decide) (by decide) (.inr (.inr (.inr (by decide)))) (by decide) (by decide) (.inr (.inr (.inr (by decide))))
  have a5 : W8 m c main_arg5 = m ((c : Thread nD τ).loc main_arg5) :=
    arg8 m c main_arg5 (by decide) (by decide) (by decide) (by decide) (by decide) (by decide) (.inr (.inr (.inr (by decide)))) (by decide) (by decide) (.inr (.inr (.inr (by decide))))
  have a6 : W8 m c main_arg6 = m ((c : Thread nD τ).loc main_arg6) :=
    arg8 m c main_arg6 (by decide) (by decide) (by decide) (by decide) (by decide) (by decide) (.inr (.inr (.inr (by decide)))) (by decide) (by decide) (.inr (.inr (.inr (by decide))))
  have a7 : W8 m c main_arg7 = m ((c : Thread nD τ).loc main_arg7) :=
    arg8 m c main_arg7 (by decide) (by decide) (by decide) (by decide) (by decide) (by decide) (.inr (.inr (.inr (by decide)))) (by decide) (by decide) (.inr (.inr (.inr (by decide))))
  have n12 : W8 m c main_v12 = val_main_v12 (F := Ideal) (m ((c : Thread nD τ).loc main_arg7)) :=
    (keep8 m c main_v12 (by decide) (.inr (.inr (.inr (by decide))))).trans <| (keep7 m c main_v12 (by decide)).trans <|
      (keep6 m c main_v12 (by decide) (.inr (.inr (.inr (by decide))))).trans (host_v12 m c)
  show StableHlo.after hostOps2 (W8 m c) (Proc.devRef .tc main_v52) = _
  after_results_simp
  simp only [h34, a1, a5, a6, a7, n12, scatter2_eq, gather_eq]

  simp only [val_main_v56, val_main_v55, val_main_v54, val_main_v53, val_main_v52, val_main_v51, val_main_v50, val_main_v49, val_main_v48,
    val_main_cst_10, val_main_v47, val_main_v46, val_main_v45, val_main_v44, val_main_v43, val_main_v42, val_main_v41, val_main_c_9,
    val_main_v40, val_main_v39, val_main_c_8]

end Cert.KernelIdeal.Hand

end
-- ==== Proof.KI.Stages.lean ====
/-
  The kernel program's results are the reference's, stage by stage, at the ideal instance.
  Both programs apply the same host operations around three contractions; the kernel program computes each contraction
  in a pipelined region, block by block, the reference in one dot_general. Following the fold of buffer contents through
  @main: the first region's output array is the reference's first contraction (the blocks' sums are the whole array's
  sums, entry by entry); the gather / scatter stretch after it then computes the reference's next stage from it; the
  second region's output is the second contraction of that; the second stretch gives the hidden features x, the
  program's second result; the decode's output array is the Gram matrix of x, the reference's x xᵀ, the first result.
-/
import proofs.«123820_j2207613190405_1_alg».proof.Proof.KI.Kept
import proofs.«123820_j2207613190405_1_alg».proof.Proof.KI.Val0
import proofs.«123820_j2207613190405_1_alg».proof.Proof.KI.Val1
import proofs.«123820_j2207613190405_1_alg».proof.Proof.KI.Val2
import proofs.«123820_j2207613190405_1_alg».proof.Proof.Bridge
import proofs.«123820_j2207613190405_1_alg».proof.Proof.Host

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen
open Cert.ReferenceIdeal.Read (val_main_v10 val_main_v12 val_main_v16 val_main_v34 val_main_v38 val_main_v56 val_main_v58)

variable (m : (ℓ : Loc nD τ sig) → Buf (Elt Ideal) ℓ)

/-- The first region's output array is the reference's first contraction of the launch arguments. -/
theorem stage_v14 (c : Dev nD) :
    W6 m c main_v14 = val_main_v16 (F := Ideal) (m ((c : Thread nD τ).loc main_arg0)) (m ((c : Thread nD τ).loc main_arg2)) (m ((c : Thread nD τ).loc main_arg6)) :=
  calc W6 m c main_v14 = (dat0 (E0 m) c).arrAt 3 cfg0.N := W6_arr m c 3
    _ = proj0 (W5 m c main_arg0) (W5 m c main_v13) (W5 m c main_arg2) := final0 (E0 m) c
    _ = proj0 (m ((c : Thread nD τ).loc main_arg0)) (W5 m c main_v13) (m ((c : Thread nD τ).loc main_arg2)) := by
        rw [keep5 m c main_arg0 (by decide) (by decide) (by decide) (by decide) (by decide),
          keep5 m c main_arg2 (by decide) (by decide) (by decide) (by decide) (by decide)]
    _ = _ := (Cert.Bridge.ref_proj0 _ _ _ (W5 m c main_v13) (host_v13 m c)).symm

/-- The hidden features after the first layer. -/
theorem stage_v32 (c : Dev nD) :
    W7 m c main_v32 = val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) :=
  host_v32 m c (stage_v14 m c)

/-- The second weights reach the second region as launched. -/
theorem W7_main_arg4 (c : Dev nD) : W7 m c main_arg4 = (m ((c : Thread nD τ).loc main_arg4)) :=
  (keep7 m c main_arg4 (by decide)).trans <| (keep6 m c main_arg4 (by decide) (.inr (.inr (.inr (by decide))))).trans
    (keep5 m c main_arg4 (by decide) (by decide) (by decide) (by decide) (by decide))

/-- The second region's output array is the reference's second contraction. -/
theorem stage_v34 (c : Dev nD) :
    W8 m c main_v34 = val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) :=
  calc W8 m c main_v34 = (dat1 (E1 m) c).arrAt 3 cfg1.N := W8_arr m c 3
    _ = proj1 (W7 m c main_v32) (W7 m c main_v33) (W7 m c main_arg4) := final1 (E1 m) c
    _ = proj1 (val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7))) (W7 m c main_v33) (m ((c : Thread nD τ).loc main_arg4)) := by
        rw [stage_v32 m c, W7_main_arg4 m c]
    _ = _ := (Cert.Bridge.ref_proj1 _ _ _ _ _ _ _ (W7 m c main_v33) (host_v33 m c)).symm

/-- The program's second result, the hidden features after the second layer. -/
theorem stage_v52 (c : Dev nD) :
    W10 m c main_v52 = val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (keep10 m c main_v52 (by decide)).trans (host_v52 m c (stage_v34 m c))

/-- The program's first result, the decode: the Gram matrix of the hidden features. -/
theorem stage_v53 (c : Dev nD) :
    W10 m c main_v53 = val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  calc W10 m c main_v53 = (dat2 (E2 m) c).arrAt 2 cfg2.N := W10_out m c
    _ = gram (W9 m c main_v52) := final2 (E2 m) c
    _ = gram (val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
        rw [host_v52 m c (stage_v34 m c)]
    _ = _ := (Cert.Bridge.ref_gram _ _ _ _ _ _ _ _).symm

end Cert.KernelIdeal.Hand

end
-- ==== Proof.lean ====
/-
  A two-layer weighted graph convolution followed by an inner-product decode, against its plain reference.
  Both programs compute, on the host, the out- and in-degree norms (scatter-adds of ones, clipped below at one, raised to
  the power -1/2), and for each layer: scale the rows of the features by the out-degree norm and multiply by the layer's
  weights; gather the rows named by the edges' sources, scale each by its edge weight, scatter-add them at the edges'
  destinations; scale the rows by the in-degree norm and add the bias. The result pair is the hidden features x and
  the decode x xᵀ. The kernel program computes the three matrix products in pipelined regions, block by block
  (twelve row blocks for the two projections, a 12 × 12 grid of square blocks for the decode, both of whose operands are
  the one array x), rounding the factors to bf16 on the way in; the reference computes each in one dot_general.
  At the ideal instance the roundings are the identity and every product is a finite sum of extended reals, whose value
  does not depend on how it is blocked: each region's output array is, entry by entry, the reference's contraction
  (KI/Val0, Val1, Val2 and Bridge), the host operations around them are the same on both sides (Host), and so the two
  results agree (KI/Stages). No algebraic law beyond re-indexing a sum is used, and the precondition is not opened.
  The frames: @main runs as ten items, every unscoped buffer of the core followed through them (KI/Run, K/Run), and
  no item writes an argument (KI/Kept). The idealization rewrote no operation, so nothing is to preserve.
-/
import proofs.«123820_j2207613190405_1_alg».proof.Defs
import proofs.«123820_j2207613190405_1_alg».proof.Proof.Gen.Kernel
import proofs.«123820_j2207613190405_1_alg».proof.Proof.Gen.KernelIdeal
import proofs.«123820_j2207613190405_1_alg».proof.Proof.Gen.ReferenceIdeal
import proofs.«123820_j2207613190405_1_alg».proof.Proof.Gen.Pre_finite_inputs
import proofs.«123820_j2207613190405_1_alg».proof.Proof.Gen.ReferenceIdeal.Run
import proofs.«123820_j2207613190405_1_alg».proof.Proof.Gen.ReferenceIdeal.Read
import proofs.«123820_j2207613190405_1_alg».proof.Proof.K.Frame
import proofs.«123820_j2207613190405_1_alg».proof.Proof.KI.Frame
import proofs.«123820_j2207613190405_1_alg».proof.Proof.KI.Stages
import Idealize.ShloMosaic.Adequacy
import Idealize.ShloMosaic.Init

noncomputable section

namespace Cert.Proof

open Idealize.ShloMosaic Idealize.ShloMosaic.TcCoe Idealize.SL.Sem

/-- The word-level program runs to the end and leaves its arguments as launched. -/
theorem frame_k : Cert.frame_Kernel := fun m ρ _ => Cert.Kernel.Hand.frame m ρ

/-- So does its reading at the ideal instance. -/
theorem frame_ki : Cert.frame_KernelIdeal := fun m ρ _ => Cert.KernelIdeal.Hand.frame m ρ

/-- The reference is a host program: its run, with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

open Cert.KernelIdeal.Hand in
/-- From memories that agree on the arguments both programs end with the decode and the hidden features at the same
    extended reals: the kernel program's fold ends at the reference's last two stages of the same arguments. -/
theorem algebraic : Cert.algebraic_KernelIdeal_ReferenceIdeal := by
  intro m ρ m' ρ' _ hagree
  refine ⟨fun c => W10 m c Cert.KernelIdeal.main_v53, fun c => W10 m c Cert.KernelIdeal.main_v52, ?_, ?_⟩
  · exact (θ_run Cert.KernelIdeal.defs _ _).mono (fun _ h c =>
      ⟨h c _ (mem_uc Cert.KernelIdeal.main_v53 (by decide)), h c _ (mem_uc Cert.KernelIdeal.main_v52 (by decide)),
       (h c _ (mem_uc Cert.KernelIdeal.main_arg0 (by decide))).trans (W10_main_arg0 m c),
       (h c _ (mem_uc Cert.KernelIdeal.main_arg1 (by decide))).trans (W10_main_arg1 m c),
       (h c _ (mem_uc Cert.KernelIdeal.main_arg2 (by decide))).trans (W10_main_arg2 m c),
       (h c _ (mem_uc Cert.KernelIdeal.main_arg3 (by decide))).trans (W10_main_arg3 m c),
       (h c _ (mem_uc Cert.KernelIdeal.main_arg4 (by decide))).trans (W10_main_arg4 m c),
       (h c _ (mem_uc Cert.KernelIdeal.main_arg5 (by decide))).trans (W10_main_arg5 m c),
       (h c _ (mem_uc Cert.KernelIdeal.main_arg6 (by decide))).trans (W10_main_arg6 m c),
       (h c _ (mem_uc Cert.KernelIdeal.main_arg7 (by decide))).trans (W10_main_arg7 m c)⟩) (run_all m ρ)
  · refine (θ_run Cert.ReferenceIdeal.defs _ _).mono (fun _ h c => ?_) (Cert.ReferenceIdeal.Value.run (F := Ideal) m' ρ')
    obtain ⟨h0, h1, h2, h3, h4, h5, h6, h7⟩ := hagree c
    refine ⟨(h c).1.trans ?_, (h c).2.1.trans ?_, (h c).2.2⟩
    · rw [Cert.ReferenceIdeal.Read.val_main_v58_eq, h0, h1, h2, h3, h4, h5, h6, h7]
      exact (stage_v53 m c).symm
    · rw [Cert.ReferenceIdeal.Read.val_main_v56_eq, h0, h1, h2, h3, h4, h5, h6, h7]
      exact (stage_v52 m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
